-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v82) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S100000x128 .f32) (main_arg1 : IVec S2x1600000 32) (main_arg2 : FVec F S128x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S3936 : Shape := ⟨1, ![3936]⟩
abbrev S1703936 : Shape := ⟨1, ![1703936]⟩
abbrev S1703936x1 : Shape := ⟨2, ![1703936, 1]⟩
abbrev S5000x128 : Shape := ⟨2, ![5000, 128]⟩
abbrev S1703936x128 : Shape := ⟨2, ![1703936, 128]⟩
abbrev S8192x128 : Shape := ⟨2, ![8192, 128]⟩
abbrev S8192x1 : Shape := ⟨2, ![8192, 1]⟩
abbrev S1x128 : Shape := ⟨2, ![1, 128]⟩
abbrev S100000x40 : Shape := ⟨2, ![100000, 40]⟩
abbrev S5000x40 : Shape := ⟨2, ![5000, 40]⟩
abbrev S1703936x40 : Shape := ⟨2, ![1703936, 40]⟩
abbrev S8192x40 : Shape := ⟨2, ![8192, 40]⟩
abbrev S1x40 : Shape := ⟨2, ![1, 40]⟩

abbrev nBuf : Space → Nat
  | .hbm => 118
  | .vmem => 33
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S_, .i32⟩
  | .hbm, ⟨49, _⟩ => ⟨S3936, .i32⟩
  | .hbm, ⟨50, _⟩ => ⟨S1703936, .i32⟩
  | .hbm, ⟨51, _⟩ => ⟨S_, .i32⟩
  | .hbm, ⟨52, _⟩ => ⟨S3936, .i32⟩
  | .hbm, ⟨53, _⟩ => ⟨S1703936, .i32⟩
  | .hbm, ⟨54, _⟩ => ⟨S_, .f32⟩
  | .hbm, ⟨55, _⟩ => ⟨S3936, .f32⟩
  | .hbm, ⟨56, _⟩ => ⟨S1703936, .f32⟩
  | .hbm, ⟨57, _⟩ => ⟨S1703936x1, .f32⟩
  | .hbm, ⟨58, _⟩ => ⟨S100000x128, .f32⟩
  | .hbm, ⟨59, _⟩ => ⟨S_, .i32⟩
  | .hbm, ⟨60, _⟩ => ⟨S1703936, .i32⟩
  | .hbm, ⟨61, _⟩ => ⟨S1703936, .i1⟩
  | .hbm, ⟨62, _⟩ => ⟨S_, .i32⟩
  | .hbm, ⟨63, _⟩ => ⟨S1703936, .i32⟩
  | .hbm, ⟨64, _⟩ => ⟨S1703936, .i32⟩
  | .hbm, ⟨65, _⟩ => ⟨S1703936, .i32⟩
  | .hbm, ⟨66, _⟩ => ⟨S1703936x1, .i32⟩
  | .hbm, ⟨67, _⟩ => ⟨S1703936x128, .f32⟩
  | .hbm, ⟨68, _⟩ => ⟨S1703936x128, .f32⟩
  | .hbm, ⟨69, _⟩ => ⟨S_, .f32⟩
  | .hbm, ⟨70, _⟩ => ⟨S100000x128, .f32⟩
  | .hbm, ⟨71, _⟩ => ⟨S1703936x1, .i32⟩
  | .hbm, ⟨72, _⟩ => ⟨S100000x128, .f32⟩
  | .hbm, ⟨73, _⟩ => ⟨S1x128, .f32⟩
  | .hbm, ⟨74, _⟩ => ⟨S100000x128, .f32⟩
  | .hbm, ⟨75, _⟩ => ⟨S100000x128, .f32⟩
  | .hbm, ⟨76, _⟩ => ⟨S_, .f32⟩
  | .hbm, ⟨77, _⟩ => ⟨S100000x128, .f32⟩
  | .hbm, ⟨78, _⟩ => ⟨S100000x128, .f32⟩
  | .hbm, ⟨79, _⟩ => ⟨S100000x128, .f32⟩
  | .hbm, ⟨80, _⟩ => ⟨S_, .i32⟩
  | .hbm, ⟨81, _⟩ => ⟨S1703936, .i32⟩
  | .hbm, ⟨82, _⟩ => ⟨S1703936, .i1⟩
  | .hbm, ⟨83, _⟩ => ⟨S_, .i32⟩
  | .hbm, ⟨84, _⟩ => ⟨S1703936, .i32⟩
  | .hbm, ⟨85, _⟩ => ⟨S1703936, .i32⟩
  | .hbm, ⟨86, _⟩ => ⟨S1703936, .i32⟩
  | .hbm, ⟨87, _⟩ => ⟨S1703936x1, .i32⟩
  | .hbm, ⟨88, _⟩ => ⟨S1703936x128, .f32⟩
  | .hbm, ⟨89, _⟩ => ⟨S1703936x128, .f32⟩
  | .hbm, ⟨90, _⟩ => ⟨S_, .f32⟩
  | .hbm, ⟨91, _⟩ => ⟨S100000x128, .f32⟩
  | .hbm, ⟨92, _⟩ => ⟨S1703936x1, .i32⟩
  | .hbm, ⟨93, _⟩ => ⟨S100000x128, .f32⟩
  | .hbm, ⟨94, _⟩ => ⟨S1x128, .f32⟩
  | .hbm, ⟨95, _⟩ => ⟨S100000x128, .f32⟩
  | .hbm, ⟨96, _⟩ => ⟨S100000x128, .f32⟩
  | .hbm, ⟨97, _⟩ => ⟨S_, .f32⟩
  | .hbm, ⟨98, _⟩ => ⟨S100000x128, .f32⟩
  | .hbm, ⟨99, _⟩ => ⟨S100000x128, .f32⟩
  | .hbm, ⟨100, _⟩ => ⟨S100000x40, .f32⟩
  | .hbm, ⟨101, _⟩ => ⟨S_, .i32⟩
  | .hbm, ⟨102, _⟩ => ⟨S1703936, .i32⟩
  | .hbm, ⟨103, _⟩ => ⟨S1703936, .i1⟩
  | .hbm, ⟨104, _⟩ => ⟨S_, .i32⟩
  | .hbm, ⟨105, _⟩ => ⟨S1703936, .i32⟩
  | .hbm, ⟨106, _⟩ => ⟨S1703936, .i32⟩
  | .hbm, ⟨107, _⟩ => ⟨S1703936, .i32⟩
  | .hbm, ⟨108, _⟩ => ⟨S1703936x1, .i32⟩
  | .hbm, ⟨109, _⟩ => ⟨S1703936x40, .f32⟩
  | .hbm, ⟨110, _⟩ => ⟨S1703936x40, .f32⟩
  | .hbm, ⟨111, _⟩ => ⟨S_, .f32⟩
  | .hbm, ⟨112, _⟩ => ⟨S100000x40, .f32⟩
  | .hbm, ⟨113, _⟩ => ⟨S1703936x1, .i32⟩
  | .hbm, ⟨114, _⟩ => ⟨S100000x40, .f32⟩
  | .hbm, ⟨115, _⟩ => ⟨S1x40, .f32⟩
  | .hbm, ⟨116, _⟩ => ⟨S100000x40, .f32⟩
  | .hbm, ⟨117, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S8192x128, .f32⟩
  | .local _ .vmem, ⟨6, _⟩ => ⟨S8192x128, .f32⟩
  | .local _ .vmem, ⟨7, _⟩ => ⟨S8192x1, .f32⟩
  | .local _ .vmem, ⟨8, _⟩ => ⟨S8192x1, .f32⟩
  | .local _ .vmem, ⟨9, _⟩ => ⟨S8192x128, .f32⟩
  | .local _ .vmem, ⟨10, _⟩ => ⟨S8192x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S5000x128, .f32⟩
  | .local _ .vmem, ⟨15, _⟩ => ⟨S5000x128, .f32⟩
  | .local _ .vmem, ⟨16, _⟩ => ⟨S8192x128, .f32⟩
  | .local _ .vmem, ⟨17, _⟩ => ⟨S8192x128, .f32⟩
  | .local _ .vmem, ⟨18, _⟩ => ⟨S8192x1, .f32⟩
  | .local _ .vmem, ⟨19, _⟩ => ⟨S8192x1, .f32⟩
  | .local _ .vmem, ⟨20, _⟩ => ⟨S8192x128, .f32⟩
  | .local _ .vmem, ⟨21, _⟩ => ⟨S8192x128, .f32⟩
  | .local _ .vmem, ⟨22, _⟩ => ⟨S5000x128, .f32⟩
  | .local _ .vmem, ⟨23, _⟩ => ⟨S5000x128, .f32⟩
  | .local _ .vmem, ⟨24, _⟩ => ⟨S128x40, .f32⟩
  | .local _ .vmem, ⟨25, _⟩ => ⟨S5000x40, .f32⟩
  | .local _ .vmem, ⟨26, _⟩ => ⟨S5000x40, .f32⟩
  | .local _ .vmem, ⟨27, _⟩ => ⟨S8192x40, .f32⟩
  | .local _ .vmem, ⟨28, _⟩ => ⟨S8192x40, .f32⟩
  | .local _ .vmem, ⟨29, _⟩ => ⟨S8192x1, .f32⟩
  | .local _ .vmem, ⟨30, _⟩ => ⟨S8192x1, .f32⟩
  | .local _ .vmem, ⟨31, _⟩ => ⟨S8192x40, .f32⟩
  | .local _ .vmem, ⟨32, _⟩ => ⟨S8192x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_c_6 : Ref sig .tc := ⟨.hbm, 48, rfl⟩
abbrev main_v30 : Ref sig .tc := ⟨.hbm, 49, rfl⟩
abbrev main_v31 : Ref sig .tc := ⟨.hbm, 50, rfl⟩
abbrev main_c_7 : Ref sig .tc := ⟨.hbm, 51, rfl⟩
abbrev main_v32 : Ref sig .tc := ⟨.hbm, 52, rfl⟩
abbrev main_v33 : Ref sig .tc := ⟨.hbm, 53, rfl⟩
abbrev main_cst_8 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_9 : Ref sig .tc := ⟨.hbm, 59, rfl⟩
abbrev main_v38 : Ref sig .tc := ⟨.hbm, 60, rfl⟩
abbrev main_v39 : Ref sig .tc := ⟨.hbm, 61, rfl⟩
abbrev main_c_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_11 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_call1_cst : Ref sig .tc := ⟨.hbm, 76, rfl⟩
abbrev main_call1_v0 : Ref sig .tc := ⟨.hbm, 77, rfl⟩
abbrev main_v52 : Ref sig .tc := ⟨.hbm, 78, rfl⟩
abbrev main_v53 : Ref sig .tc := ⟨.hbm, 79, rfl⟩
abbrev main_c_12 : Ref sig .tc := ⟨.hbm, 80, rfl⟩
abbrev main_v54 : Ref sig .tc := ⟨.hbm, 81, rfl⟩
abbrev main_v55 : Ref sig .tc := ⟨.hbm, 82, rfl⟩
abbrev main_c_13 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_cst_14 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_call2_cst : Ref sig .tc := ⟨.hbm, 97, rfl⟩
abbrev main_call2_v0 : Ref sig .tc := ⟨.hbm, 98, rfl⟩
abbrev main_v68 : Ref sig .tc := ⟨.hbm, 99, rfl⟩
abbrev main_v69 : Ref sig .tc := ⟨.hbm, 100, rfl⟩
abbrev main_c_15 : Ref sig .tc := ⟨.hbm, 101, rfl⟩
abbrev main_v70 : Ref sig .tc := ⟨.hbm, 102, rfl⟩
abbrev main_v71 : Ref sig .tc := ⟨.hbm, 103, rfl⟩
abbrev main_c_16 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_cst_17 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg1_1 : Ref sig .tc := ⟨.vmem, 30, rfl⟩
abbrev cc5_stg2_0 : Ref sig .tc := ⟨.vmem, 31, rfl⟩
abbrev cc5_stg2_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem1_1 : DmaSem sig := 30
abbrev cc5_sem2_0 : DmaSem sig := 31
abbrev cc5_sem2_1 : DmaSem sig := 32

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![208], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8192x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S8192x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![208], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S8192x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S8192x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S8192x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![208], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S8192x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S8192x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S8192x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S3936 : S_.BroadcastsInDim S3936 (![] : Fin 0 → Fin S3936.rank)
  concatenates_S1700000_S3936_S1703936_d0 : Shape.Concatenates [S1700000, S3936] S1703936 0
  bcast_S1703936_S1703936x1_0 : S1703936.BroadcastsInDim S1703936x1 (![0] : Fin 1 → Fin S1703936x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S1703936 : S_.BroadcastsInDim S1703936 (![] : Fin 0 → Fin S1703936.rank)
  inb_S8192x1_S8192x1_0_0 : ∀ a, (![0, 0] : Fin 2 → Nat) a + S8192x1.size a ≤ S8192x1.size a
  h_S8192x1 : 0 < S8192x1.numel
  shapeCasts_S8192x1_S8192x1 : S8192x1.ShapeCasts S8192x1
  broadcasts_S8192x1_S8192x128 : S8192x1.Broadcasts S8192x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S5000x128_S5000x128 : S5000x128.ShapeCasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  broadcasts_S8192x1_S8192x40 : S8192x1.Broadcasts S8192x40
  inb_S8192x40_S8192x40_0_0 : ∀ a, (![0, 0] : Fin 2 → Nat) a + S8192x40.size a ≤ S8192x40.size a
  h_S8192x40 : 0 < S8192x40.numel
  shapeCasts_S8192x40_S8192x40 : S8192x40.ShapeCasts S8192x40
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S5000x128_S128x128_S5000x128_1_0_0_1_n_n_wf : DotDims.WF S5000x128 S128x128 S5000x128 [1] [0] [0] [1] [] []
  gather_S100000x128_S1703936x1_S1703936x128_1_0_n_n_0_1_1128_wf : GatherDims.WF S100000x128 S1703936x1 S1703936x128 [1] [0] [] [0] [] 1 ![1, 128]
  scatter_S100000x128_S1703936x1_S1703936x128_1_0_0_1_wf : ScatterDims.WF S100000x128 S1703936x1 S1703936x128 [1] [0] [0] 1
  dot_S5000x128_S128x40_S5000x40_1_0_0_1_n_n_wf : DotDims.WF S5000x128 S128x40 S5000x40 [1] [0] [0] [1] [] []
  gather_S100000x40_S1703936x1_S1703936x40_1_0_n_n_0_1_140_wf : GatherDims.WF S100000x40 S1703936x1 S1703936x40 [1] [0] [] [0] [] 1 ![1, 40]
  scatter_S100000x40_S1703936x1_S1703936x40_1_0_0_1_wf : ScatterDims.WF S100000x40 S1703936x1 S1703936x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x128.size a ≤ S1703936x128.size a
  hwx1_0 : ∀ i : grid1.Coords, EltTy.bits .f32 = 32 ∨ (Rect.block (s := S1703936x128) S8192x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8192x1.size a ≤ S1703936x1.size a
  hwx1_1 : ∀ i : grid1.Coords, EltTy.bits .f32 = 32 ∨ (Rect.block (s := S1703936x1) S8192x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x128.size a ≤ S1703936x128.size a
  hwx1_2 : ∀ i : grid1.Coords, EltTy.bits .f32 = 32 ∨ (Rect.block (s := S1703936x128) S8192x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S100000x128.size a
  hwx2_2 : ∀ i : grid2.Coords, EltTy.bits .f32 = 32 ∨ (Rect.block (s := S100000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S8192x128.size a ≤ S1703936x128.size a
  hwx3_0 : ∀ i : grid3.Coords, EltTy.bits .f32 = 32 ∨ (Rect.block (s := S1703936x128) S8192x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S8192x1.size a ≤ S1703936x1.size a
  hwx3_1 : ∀ i : grid3.Coords, EltTy.bits .f32 = 32 ∨ (Rect.block (s := S1703936x1) S8192x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S8192x128.size a ≤ S1703936x128.size a
  hwx3_2 : ∀ i : grid3.Coords, EltTy.bits .f32 = 32 ∨ (Rect.block (s := S1703936x128) S8192x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S100000x40.size a
  hwx4_2 : ∀ i : grid4.Coords, EltTy.bits .f32 = 32 ∨ (Rect.block (s := S100000x40) S5000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S8192x40.size a ≤ S1703936x40.size a
  hwx5_0 : ∀ i : grid5.Coords, EltTy.bits .f32 = 32 ∨ (Rect.block (s := S1703936x40) S8192x40.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S8192x1.size a ≤ S1703936x1.size a
  hwx5_1 : ∀ i : grid5.Coords, EltTy.bits .f32 = 32 ∨ (Rect.block (s := S1703936x1) S8192x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S8192x40.size a ≤ S1703936x40.size a
  hwx5_2 : ∀ i : grid5.Coords, EltTy.bits .f32 = 32 ∨ (Rect.block (s := S1703936x40) S8192x40.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S100000x128_S1703936x1_S1703936x128_1_0_n_n_0_1_1128 : GatherDims S100000x128 S1703936x1 S1703936x128 where
  offsetDims := [1]
  collapsedSliceDims := [0]
  operandBatchingDims := []
  startIndicesBatchingDims := []
  startIndexMap := [0]
  indexVectorDim := 1
  sliceSizes := ![1, 128]
  wf := gather_S100000x128_S1703936x1_S1703936x128_1_0_n_n_0_1_1128_wf
def scatter_S100000x128_S1703936x1_S1703936x128_1_0_0_1 : ScatterDims S100000x128 S1703936x1 S1703936x128 where
  updateWindowDims := [1]
  insertedWindowDims := [0]
  scatterDimsToOperandDims := [0]
  indexVectorDim := 1
  wf := scatter_S100000x128_S1703936x1_S1703936x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S100000x40_S1703936x1_S1703936x40_1_0_n_n_0_1_140 : GatherDims S100000x40 S1703936x1 S1703936x40 where
  offsetDims := [1]
  collapsedSliceDims := [0]
  operandBatchingDims := []
  startIndicesBatchingDims := []
  startIndexMap := [0]
  indexVectorDim := 1
  sliceSizes := ![1, 40]
  wf := gather_S100000x40_S1703936x1_S1703936x40_1_0_n_n_0_1_140_wf
def scatter_S100000x40_S1703936x1_S1703936x40_1_0_0_1 : ScatterDims S100000x40 S1703936x1 S1703936x40 where
  updateWindowDims := [1]
  insertedWindowDims := [0]
  scatterDimsToOperandDims := [0]
  indexVectorDim := 1
  wf := scatter_S100000x40_S1703936x1_S1703936x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v37) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v44) S8192x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v36) S8192x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v45) S8192x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v52) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v60) S8192x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v36) S8192x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v61) S8192x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v68) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v69) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v76) S8192x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v36) S8192x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v77) S8192x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S1x128 : Shape := ⟨2, ![1, 128]⟩
abbrev S100000x40 : Shape := ⟨2, ![100000, 40]⟩
abbrev S1700000x40 : Shape := ⟨2, ![1700000, 40]⟩
abbrev S1x40 : Shape := ⟨2, ![1, 40]⟩

abbrev nBuf : Space → Nat
  | .hbm => 114
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S1700000, .i32⟩
  | .hbm, ⟨31, _⟩ => ⟨S1700000, .i1⟩
  | .hbm, ⟨32, _⟩ => ⟨S_, .i32⟩
  | .hbm, ⟨33, _⟩ => ⟨S1700000, .i32⟩
  | .hbm, ⟨34, _⟩ => ⟨S1700000, .i32⟩
  | .hbm, ⟨35, _⟩ => ⟨S1700000, .i32⟩
  | .hbm, ⟨36, _⟩ => ⟨S1700000x1, .i32⟩
  | .hbm, ⟨37, _⟩ => ⟨S1700000, .f32⟩
  | .hbm, ⟨38, _⟩ => ⟨S_, .i32⟩
  | .hbm, ⟨39, _⟩ => ⟨S1700000, .i32⟩
  | .hbm, ⟨40, _⟩ => ⟨S1700000, .i1⟩
  | .hbm, ⟨41, _⟩ => ⟨S_, .i32⟩
  | .hbm, ⟨42, _⟩ => ⟨S1700000, .i32⟩
  | .hbm, ⟨43, _⟩ => ⟨S1700000, .i32⟩
  | .hbm, ⟨44, _⟩ => ⟨S1700000, .i32⟩
  | .hbm, ⟨45, _⟩ => ⟨S1700000x1, .i32⟩
  | .hbm, ⟨46, _⟩ => ⟨S1700000, .f32⟩
  | .hbm, ⟨47, _⟩ => ⟨S1700000, .f32⟩
  | .hbm, ⟨48, _⟩ => ⟨S100000x128, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000x128, .f32⟩
  | .hbm, ⟨58, _⟩ => ⟨S1700000x1, .f32⟩
  | .hbm, ⟨59, _⟩ => ⟨S1700000x128, .f32⟩
  | .hbm, ⟨60, _⟩ => ⟨S1700000x128, .f32⟩
  | .hbm, ⟨61, _⟩ => ⟨S_, .f32⟩
  | .hbm, ⟨62, _⟩ => ⟨S100000x128, .f32⟩
  | .hbm, ⟨63, _⟩ => ⟨S1700000x1, .i32⟩
  | .hbm, ⟨64, _⟩ => ⟨S100000x128, .f32⟩
  | .hbm, ⟨65, _⟩ => ⟨S1x128, .f32⟩
  | .hbm, ⟨66, _⟩ => ⟨S100000x128, .f32⟩
  | .hbm, ⟨67, _⟩ => ⟨S100000x128, .f32⟩
  | .hbm, ⟨68, _⟩ => ⟨S_, .f32⟩
  | .hbm, ⟨69, _⟩ => ⟨S100000x128, .f32⟩
  | .hbm, ⟨70, _⟩ => ⟨S100000x128, .f32⟩
  | .hbm, ⟨71, _⟩ => ⟨S100000x128, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x128, .f32⟩
  | .hbm, ⟨81, _⟩ => ⟨S1700000x1, .f32⟩
  | .hbm, ⟨82, _⟩ => ⟨S1700000x128, .f32⟩
  | .hbm, ⟨83, _⟩ => ⟨S1700000x128, .f32⟩
  | .hbm, ⟨84, _⟩ => ⟨S_, .f32⟩
  | .hbm, ⟨85, _⟩ => ⟨S100000x128, .f32⟩
  | .hbm, ⟨86, _⟩ => ⟨S1700000x1, .i32⟩
  | .hbm, ⟨87, _⟩ => ⟨S100000x128, .f32⟩
  | .hbm, ⟨88, _⟩ => ⟨S1x128, .f32⟩
  | .hbm, ⟨89, _⟩ => ⟨S100000x128, .f32⟩
  | .hbm, ⟨90, _⟩ => ⟨S100000x128, .f32⟩
  | .hbm, ⟨91, _⟩ => ⟨S_, .f32⟩
  | .hbm, ⟨92, _⟩ => ⟨S100000x128, .f32⟩
  | .hbm, ⟨93, _⟩ => ⟨S100000x128, .f32⟩
  | .hbm, ⟨94, _⟩ => ⟨S100000x40, .f32⟩
  | .hbm, ⟨95, _⟩ => ⟨S_, .i32⟩
  | .hbm, ⟨96, _⟩ => ⟨S1700000, .i32⟩
  | .hbm, ⟨97, _⟩ => ⟨S1700000, .i1⟩
  | .hbm, ⟨98, _⟩ => ⟨S_, .i32⟩
  | .hbm, ⟨99, _⟩ => ⟨S1700000, .i32⟩
  | .hbm, ⟨100, _⟩ => ⟨S1700000, .i32⟩
  | .hbm, ⟨101, _⟩ => ⟨S1700000, .i32⟩
  | .hbm, ⟨102, _⟩ => ⟨S1700000x1, .i32⟩
  | .hbm, ⟨103, _⟩ => ⟨S1700000x40, .f32⟩
  | .hbm, ⟨104, _⟩ => ⟨S1700000x1, .f32⟩
  | .hbm, ⟨105, _⟩ => ⟨S1700000x40, .f32⟩
  | .hbm, ⟨106, _⟩ => ⟨S1700000x40, .f32⟩
  | .hbm, ⟨107, _⟩ => ⟨S_, .f32⟩
  | .hbm, ⟨108, _⟩ => ⟨S100000x40, .f32⟩
  | .hbm, ⟨109, _⟩ => ⟨S1700000x1, .i32⟩
  | .hbm, ⟨110, _⟩ => ⟨S100000x40, .f32⟩
  | .hbm, ⟨111, _⟩ => ⟨S1x40, .f32⟩
  | .hbm, ⟨112, _⟩ => ⟨S100000x40, .f32⟩
  | .hbm, ⟨113, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x40_0_1 : S1700000x1.BroadcastsInDim S1700000x40 (![0, 1] : Fin 2 → Fin S1700000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x128_S128x128_S100000x128_1_0_0_1_n_n_wf : DotDims.WF S100000x128 S128x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x40_S100000x40_1_0_0_1_n_n_wf : DotDims.WF S100000x128 S128x40 S100000x40 [1] [0] [0] [1] [] []
  gather_S100000x40_S1700000x1_S1700000x40_1_0_n_n_0_1_140_wf : GatherDims.WF S100000x40 S1700000x1 S1700000x40 [1] [0] [] [0] [] 1 ![1, 40]
  scatter_S100000x40_S1700000x1_S1700000x40_1_0_0_1_wf : ScatterDims.WF S100000x40 S1700000x1 S1700000x40 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1700000x1_S1700000x40_1_0_n_n_0_1_140 : GatherDims S100000x40 S1700000x1 S1700000x40 where
  offsetDims := [1]
  collapsedSliceDims := [0]
  operandBatchingDims := []
  startIndicesBatchingDims := []
  startIndexMap := [0]
  indexVectorDim := 1
  sliceSizes := ![1, 40]
  wf := gather_S100000x40_S1700000x1_S1700000x40_1_0_n_n_0_1_140_wf
def scatter_S100000x40_S1700000x1_S1700000x40_1_0_0_1 : ScatterDims S100000x40 S1700000x1 S1700000x40 where
  updateWindowDims := [1]
  insertedWindowDims := [0]
  scatterDimsToOperandDims := [0]
  indexVectorDim := 1
  wf := scatter_S100000x40_S1700000x1_S1700000x40_1_0_0_1_wf

class Facts : Prop extends Facts₀ where

variable [Facts]
-- ==== Proof.Vals.lean ====
/-
  The two whole-table operations a layer's kernels compute, entry by entry over the extended reals:
  * the plain product of an [M, K] table by a [K, N] table;
  * an [R, C] table with each row multiplied by that row's entry of an [R, 1] column.
-/
import Idealize.ShloMosaic.PureOps.Ideal
import Idealize.ShloMosaic.Lib.ValueIdx

noncomputable section

open scoped BigOperators

namespace Cert.GcnVals

open Idealize.ShloMosaic Idealize.ShloMosaic.ValueIdx

/-- The plain product: entry (p, q) is the sum over k of x (p, k) · w (k, q). -/
def mm {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- Rows scaled by a column: entry (r, c) is h (r, c) · n (r, 0). -/
def scaleRows {R C : Nat} (h : (⟨2, ![R, C]⟩ : Shape).Idx → EReal) (n : (⟨2, ![R, 1]⟩ : Shape).Idx → EReal) :
    (⟨2, ![R, C]⟩ : Shape).Idx → EReal :=
  fun i => h i * n (ix2 (i 0) 0)

theorem mm_apply {M K N : Nat} (x : (⟨2, ![M, K]⟩ : Shape).Idx → EReal) (w : (⟨2, ![K, N]⟩ : Shape).Idx → EReal)
    (p : Fin M) (q : Fin N) : mm x w (ix2 p q) = ∑ k : Fin K, x (ix2 p k) * w (ix2 k q) := rfl

theorem scaleRows_apply {R C : Nat} (h : (⟨2, ![R, C]⟩ : Shape).Idx → EReal) (n : (⟨2, ![R, 1]⟩ : Shape).Idx → EReal)
    (r : Fin R) (c : Fin C) : scaleRows h n (ix2 r c) = h (ix2 r c) * n (ix2 r 0) := rfl

end Cert.GcnVals

end
-- ==== Proof.LibRowDims.lean ====
/-
  Dimension numbers over symbolic extents, each read in coordinates:
  * a plain contraction `[M, K] × [K, N]` is the sum over the contracted coordinate;
  * a row gather — `x[idx]` of a table `[N, C]` at start indices `[R, 1]` — reads row `idx r` of the table,
    the start index taken signed and clamped into `[0, N − 1]`;
  * a row scatter-add into a table `[N, C]` adds update row `r` at row `idx r` of the table when that row exists
    (the start index taken signed, not clamped) and nowhere otherwise, so the entry `(a, b)` of the result is the
    table's entry plus the sum of the updates' entries `(r, b)` over the rows `r` with `idx r = a`.
-/
import Idealize.ShloMosaic.PureOps.Ideal
import Idealize.ShloMosaic.PureOps.Ideal.Laws
import Idealize.ShloMosaic.Lib.ValueIdx

noncomputable section

open scoped BigOperators

namespace Idealize.ShloMosaic.RowDims

open Idealize.ShloMosaic Idealize.ShloMosaic.ValueIdx

/-! ## A plain contraction -/

/-- The left operand's row coordinate is the output's row, whatever the contraction position. -/
theorem plain_lhsIdx_row {M K N : Nat} (p : Fin M) (q : Fin N) (k : (DotDims.plain M K N).contr.Idx) :
    ((DotDims.plain M K N).lhsIdx (ix2 p q) k 0).val = p.val := rfl

/-- The right operand's column coordinate is the output's column, whatever the contraction position. -/
theorem plain_rhsIdx_col {M K N : Nat} (p : Fin M) (q : Fin N) (k : (DotDims.plain M K N).contr.Idx) :
    ((DotDims.plain M K N).rhsIdx (ix2 p q) k 1).val = q.val := rfl

/-- The contraction sum of `DotDims.plain M K N` at the output entry `(p, q)` runs over the `K` products
    `lhs (p, k) · rhs (k, q)`. -/
theorem plain_sum {M K N : Nat} (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  -- re-index the sum by the one contracted coordinate
  rw [← Equiv.sum_comp (contrEquiv1 (DotDims.plain M K N) K rfl rfl).symm]
  refine Finset.sum_congr rfl fun k _ => ?_
  -- the left operand is read at (p, k): its row from the output, its column the contracted coordinate
  have hl : (DotDims.plain M K N).lhsIdx (ix2 p q) ((contrEquiv1 (DotDims.plain M K N) K rfl rfl).symm k) = ix2 p k := by
    funext a
    refine Fin.ext ?_
    match a with
    | ⟨0, _⟩ => exact plain_lhsIdx_row p q _
    | ⟨1, _⟩ =>
      exact ((DotDims.plain M K N).lhsIdx_val_of_single (cl := 1) rfl _ _).trans
        (contrEquiv1_symm_val (DotDims.plain M K N) K rfl rfl k)
  -- the right operand is read at (k, q): its row the contracted coordinate, its column from the output
  have hr : (DotDims.plain M K N).rhsIdx (ix2 p q) ((contrEquiv1 (DotDims.plain M K N) K rfl rfl).symm k) = ix2 k q := by
    funext a
    refine Fin.ext ?_
    match a with
    | ⟨0, _⟩ =>
      exact ((DotDims.plain M K N).rhsIdx_val_of_single (cr := 0) rfl _ _).trans
        (contrEquiv1_symm_val (DotDims.plain M K N) K rfl rfl k)
    | ⟨1, _⟩ => exact plain_rhsIdx_col p q _
  rw [hl, hr]

/-- A matrix-unit product into the zero accumulator, at the ideal values, entry by entry. -/
theorem matmul_plain_zero_apply {M K N : Nat} {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact plain_sum lhs rhs p q

/-- The host's product of the same operands, at the ideal values, entry by entry: the same sum. -/
theorem dotGeneral_plain_apply {M K N : Nat} {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact plain_sum lhs rhs p q

/-! ## A row gather -/

/-- The dimension numbers of `x[idx]` for a table `[N, C]`, start indices `[R, 1]` and result `[R, C]`. -/
abbrev rowGather (N C R : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The table row a start index selects: the index read signed and clamped into `[0, N − 1]`. -/
def clampRow (N : Nat) (hN : 0 < N) {w : Nat} (v : BitVec w) : Fin N := ⟨min v.toInt.toNat (N - 1), by omega⟩

/-- The result entry `(r, c)` reads its one start-index component at `(r, 0)` of the start indices. -/
theorem rowGather_siIdx {N C R : Nat}
    (wf : GatherDims.WF ⟨2, ![N, C]⟩ ⟨2, ![R, 1]⟩ ⟨2, ![R, C]⟩ [1] [0] [] [0] [] 1 ![1, C]) (r : Fin R) (c : Fin C) :
    (rowGather N C R wf).siIdx (ix2 r c) ⟨List.idxOf (0 : Fin 2) (rowGather N C R wf).startIndexMap,
      List.idxOf_lt_length_iff.2 (List.mem_singleton.mpr rfl)⟩ = ix2 r 0 := by
  funext b; refine Fin.ext ?_
  match b with
  | ⟨0, _⟩ => rfl
  | ⟨1, _⟩ => rfl

/-- On the table's row axis (collapsed, named by the start index map) the operand index is the clamped start alone:
    no batching coordinate, no offset coordinate, and the slice size `1` leaves the clamp's upper bound `N − 1`. -/
theorem rowGather_operandIdx_row {N C R w : Nat} (hN : 0 < N)
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 0).val = (clampRow N hN (idx (ix2 r 0))).val := by
  show (rowGather N C R wf).start (ix2 r c) idx 0 + (rowGather N C R wf).batchCoord (ix2 r c) 0
    + (rowGather N C R wf).offCoord (ix2 r c) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather N C R wf).startIndexMap from List.mem_singleton.mpr rfl)]
  rw [rowGather_siIdx wf r c]
  rfl

/-- On the table's column axis (the offset axis, not named by the start index map) the operand index is the offset
    coordinate alone: the result's column. -/
theorem rowGather_operandIdx_col {N C R w : Nat}
    (wf : GatherDims.WF ⟨2, ![N, C]⟩ ⟨2, ![R, 1]⟩ ⟨2, ![R, C]⟩ [1] [0] [] [0] [] 1 ![1, C])
    (idx : IVec ⟨2, ![R, 1]⟩ w) (r : Fin R) (c : Fin C) :
    ((rowGather N C R wf).operandIdx (ix2 r c) idx 1).val = c.val := by
  show (rowGather N C R wf).start (ix2 r c) idx 1 + (rowGather N C R wf).batchCoord (ix2 r c) 1
    + (rowGather N C R wf).offCoord (ix2 r c) 1 = _
  rw [GatherDims.batchCoord_eq_zero _ _ _ List.not_mem_nil]
  unfold GatherDims.start
  rw [dif_neg (show ¬ (1 : Fin 2) ∈ (rowGather N C R wf).startIndexMap from
    fun h => absurd (congrArg Fin.val (List.mem_singleton.mp h)) Nat.one_ne_zero)]
  simp only [Nat.add_zero, Nat.zero_add]
  rfl

/-- The gather read at `(r, c)`: the table at row `clampRow (idx (r, 0))`, column `c`. -/
theorem rowGather_apply {α : Type} {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (c : Fin C) :
    Host.gather (rowGather N C R wf) x idx (ix2 r c) = x (ix2 (clampRow N hN (idx (ix2 r 0))) c) := by
  unfold Host.gather
  congr 1
  funext a
  refine Fin.ext ?_
  match a with
  | ⟨0, _⟩ => exact rowGather_operandIdx_row hN wf idx r c
  | ⟨1, _⟩ => exact rowGather_operandIdx_col wf idx r c

/-! ## A row scatter-add -/

/-- The dimension numbers of `x.at[idx].add(u)` for a table `[N, C]`, scatter indices `[R, 1]` and updates `[R, C]`. -/
abbrev rowScatter (N C R : Nat) (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- The update entry `(r, c)` reads its one start-index component at `(r, 0)` of the scatter indices. -/
theorem rowScatter_siIdx {N C R : Nat}
    (wf : ScatterDims.WF ⟨2, ![N, C]⟩ ⟨2, ![R, 1]⟩ ⟨2, ![R, C]⟩ [1] [0] [0] 1) (r : Fin R) (c : Fin C) :
    (rowScatter N C R wf).siIdx (ix2 r c) ⟨List.idxOf (0 : Fin 2) (rowScatter N C R wf).scatterDimsToOperandDims,
      List.idxOf_lt_length_iff.2 (List.mem_singleton.mpr rfl)⟩ = ix2 r 0 := by
  funext b; refine Fin.ext ?_
  match b with
  | ⟨0, _⟩ => rfl
  | ⟨1, _⟩ => rfl

/-- On the table's row axis the window starts at the scatter index of the update's row, read signed. -/
theorem rowScatter_start_row {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 0 = (idx (ix2 r 0)).toInt := by
  unfold ScatterDims.start
  rw [dif_pos (show (0 : Fin 2) ∈ (rowScatter N C R wf).scatterDimsToOperandDims from List.mem_singleton.mpr rfl),
    rowScatter_siIdx wf r c]

/-- On the table's column axis, which the scatter index does not name, the window starts at `0`. -/
theorem rowScatter_start_col {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) :
    (rowScatter N C R wf).start (ix2 r c) idx 1 = 0 := by
  unfold ScatterDims.start
  rw [dif_neg (show ¬ (1 : Fin 2) ∈ (rowScatter N C R wf).scatterDimsToOperandDims from
    fun h => absurd (congrArg Fin.val (List.mem_singleton.mp h)) Nat.one_ne_zero)]

/-- The row axis is an inserted axis: its window coordinate is `0`. -/
theorem rowScatter_window_row {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 0 = 0 := rfl

/-- The column axis carries the update's window axis: its window coordinate is the update's column. -/
theorem rowScatter_window_col {N C R : Nat}
    (wf : ScatterDims.WF ⟨2, ![N, C]⟩ ⟨2, ![R, 1]⟩ ⟨2, ![R, C]⟩ [1] [0] [0] 1) (r : Fin R) (c : Fin C) :
    (rowScatter N C R wf).window (ix2 r c) 1 = c.val := rfl

/-- Update entry `(r, c)` lands on table entry `(a, b)` exactly when its start index, read signed, is `a` and `c = b`. -/
theorem rowScatter_resultIdx?_eq_some_iff {N C R w : Nat}
    (wf : ScatterDims.WF ⟨2, ![N, C]⟩ ⟨2, ![R, 1]⟩ ⟨2, ![R, C]⟩ [1] [0] [0] 1)
    (idx : IVec ⟨2, ![R, 1]⟩ w) (r : Fin R) (c : Fin C) (a : Fin N) (b : Fin C) :
    (rowScatter N C R wf).resultIdx? (ix2 r c) idx = some (ix2 a b) ↔ (idx (ix2 r 0)).toInt = (a.val : Int) ∧ c = b := by
  have hs0 := rowScatter_start_row wf idx r c
  have hs1 := rowScatter_start_col wf idx r c
  have hw0 := rowScatter_window_row wf r c
  have hw1 := rowScatter_window_col wf r c
  unfold ScatterDims.resultIdx?
  constructor
  · -- landed at (a, b): the window is inside the table, and its two coordinates are a and b
    intro h
    split at h
    · rename_i hin
      have hf := Option.some.inj h
      have e0 := congrArg (fun f => (f 0).val) hf
      have e1 := congrArg (fun f => (f 1).val) hf
      simp only [hs0, hs1, hw0, hw1] at e0 e1
      have h0 := hin 0
      rw [hs0, hw0] at h0
      have ea : ((ix2 a b : (⟨2, ![N, C]⟩ : Shape).Idx) 0).val = a.val := rfl
      have eb : ((ix2 a b : (⟨2, ![N, C]⟩ : Shape).Idx) 1).val = b.val := rfl
      rw [ea] at e0
      rw [eb] at e1
      refine ⟨by omega, Fin.ext (by omega)⟩
    · exact absurd h (by simp)
  · -- the start index is a row of the table and the column is kept: the window is inside, at (a, c)
    rintro ⟨hv, rfl⟩
    have hin : ∀ a' : Fin 2, 0 ≤ (rowScatter N C R wf).start (ix2 r c) idx a' + (rowScatter N C R wf).window (ix2 r c) a'
        ∧ (rowScatter N C R wf).start (ix2 r c) idx a' + (rowScatter N C R wf).window (ix2 r c) a' < (⟨2, ![N, C]⟩ : Shape).size a' := by
      intro a'
      match a' with
      | ⟨0, _⟩ =>
        show 0 ≤ (rowScatter N C R wf).start (ix2 r c) idx 0 + (rowScatter N C R wf).window (ix2 r c) 0
          ∧ (rowScatter N C R wf).start (ix2 r c) idx 0 + (rowScatter N C R wf).window (ix2 r c) 0 < (N : Int)
        rw [hs0, hw0, hv]; have := a.isLt; constructor <;> omega
      | ⟨1, _⟩ =>
        show 0 ≤ (rowScatter N C R wf).start (ix2 r c) idx 1 + (rowScatter N C R wf).window (ix2 r c) 1
          ∧ (rowScatter N C R wf).start (ix2 r c) idx 1 + (rowScatter N C R wf).window (ix2 r c) 1 < (C : Int)
        rw [hs1, hw1]; have := c.isLt; constructor <;> omega
    rw [dif_pos hin]
    congr 1
    funext a'
    refine Fin.ext ?_
    match a' with
    | ⟨0, _⟩ =>
      show ((rowScatter N C R wf).start (ix2 r c) idx 0 + (rowScatter N C R wf).window (ix2 r c) 0).toNat = a.val
      rw [hs0, hw0, hv]; omega
    | ⟨1, _⟩ =>
      show ((rowScatter N C R wf).start (ix2 r c) idx 1 + (rowScatter N C R wf).window (ix2 r c) 1).toNat = c.val
      rw [hs1, hw1]; omega

/-- The accumulated table at `(a, b)`: the table's entry plus the updates' entries `(r, b)` over the rows whose start
    index is `a`. -/
theorem rowScatterAdd_apply {N C R w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w) (upd : (⟨2, ![R, C]⟩ : Shape).Idx → EReal)
    (a : Fin N) (b : Fin C) :
    Ideal.hostScatterAdd (rowScatter N C R wf) x idx upd (ix2 a b)
      = x (ix2 a b) + ∑ r : Fin R, if (idx (ix2 r 0)).toInt = (a.val : Int) then upd (ix2 r b) else 0 := by
  unfold Ideal.hostScatterAdd
  congr 1
  -- the sum over the update entries that land on (a, b), as a double sum over their rows and columns
  rw [Finset.sum_filter, sum_idx2]
  refine Finset.sum_congr rfl fun r _ => ?_
  simp only [rowScatter_resultIdx?_eq_some_iff]
  -- row r contributes its entry in column b when its start index is a, and nothing otherwise
  by_cases hv : (idx (ix2 r 0)).toInt = (a.val : Int)
  · simp only [hv, true_and, if_true]
    rw [Finset.sum_ite_eq' Finset.univ b (fun c => upd (ix2 r c)), if_pos (Finset.mem_univ b)]
  · simp only [hv, false_and, if_false]
    exact Finset.sum_const_zero

end Idealize.ShloMosaic.RowDims

end
-- ==== Proof.Reg0.lean ====
import proofs.«175999_j15590731285080_1_alg».proof.Proof.Gen.KernelIdeal.Frame
import proofs.«175999_j15590731285080_1_alg».proof.Proof.Vals
import proofs.«175999_j15590731285080_1_alg».proof.Proof.LibRowDims
import Idealize.ShloMosaic.Lib.Pipeline.Value
import Idealize.ShloMosaic.PureOps.Ideal.Laws

/-
  The first layer's product region: a grid of 20 points, point t taking rows 5000 t … 5000 t + 4999 of the
  [100000, 128] input table and the whole [128, 128] weight table, and writing back rows 5000 t … 5000 t + 4999 of the
  [100000, 128] output table. Over the extended reals the rounding of the operands is the identity and a product
  accumulated into zero is the plain sum, so each written row block is that row block of the plain product of the two
  tables as the region finds them; the 20 row blocks cover the output table, which therefore ends as the plain product.
-/

noncomputable section

namespace Cert.KernelIdeal.RegVal

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The zero offsets of a whole-buffer access. -/
private theorem zero_off0 : (![0, 0] : Fin 2 → Nat) = fun _ => 0 := funext fun a => by fin_cases a <;> rfl

/-- The body's stored value at entry (p, q) of its block: the sum over k of x (p, k) · w (k, q). The roundings to the
    narrower format are the identity over the extended reals and the accumulator is zero. -/
private theorem mm_pay0_apply (x0 : Vec Ideal S5000x128 .f32) (x1 : Vec Ideal S128x128 .f32) (p : Fin 5000) (q : Fin 128) :
    k0_pay1 x0 x1 (ix2 p q) = ∑ k : Fin 128, x0 (ix2 p k) * x1 (ix2 k q) := by
  unfold k0_pay1
  exact Idealize.ShloMosaic.RowDims.matmul_plain_zero_apply none x0 x1 p q

/-- The block indices over the grid: at point t the input and the output are at row block t, column block 0, and the
    weight table is always at its one block (0, 0). -/
private theorem mm_idx_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

/-- The two input tables as the region finds them, at their literal types. -/
private abbrev lhs0 (c : Dev nD) : (⟨2, ![100000, 128]⟩ : Shape).Idx → EReal := V c main_arg0
private abbrev rhs0 (c : Dev nD) : (⟨2, ![128, 128]⟩ : Shape).Idx → EReal := V c main_arg2

set_option maxHeartbeats 400000 in
/-- What point t writes back is block t of the plain product of the two tables: entry (p, q) of the block is the sum
    over k of (input block) (p, k) · (weight block) (k, q); the input block's entry (p, k) is the table's entry
    (5000 t + p, k), the weight block is the weight table, and the output block's entry (p, q) sits at (5000 t + p, q). -/
private theorem mm_flushed0_eq (c : Dev nD) (t : Fin cfg0.N) :
    (dat0 (F := Ideal) V c).flushed 2 t = ((cfg0.win 2).blk t).view.read (Elt Ideal) (Cert.GcnVals.mm (M := 100000) (K := 128) (N := 128) (V c main_arg0) (V c main_arg2)) := by
  show (cfg0.win 2).cut (grid0.coords t) ((dat0 (F := Ideal) V c).after 2 t) = _
  rw [after0_2]
  unfold out0_2
  rw [View.canon_unit_zero zero_off0]
  simp only [View.ld_unit_zero (S := S5000x128) zero_off0, View.ld_unit_zero (S := S128x128) zero_off0]
  obtain ⟨e0, e1, e2, e3, e4, e5⟩ := mm_idx_facts0 t
  funext j
  obtain ⟨p, q, rfl⟩ : ∃ (p : Fin 5000) (q : Fin 128), j = ix2 p q := ⟨j 0, j 1, eq_ix2 (n0 := 5000) (n1 := 128) j⟩
  refine (mm_pay0_apply (iblk0 V c 0 t) (iblk0 V c 1 t) p q).trans ?_
  show (∑ k : Fin 128, lhs0 V c (((cfg0.win 0).blk t).view.emb (ix2 p k)) * rhs0 V c (((cfg0.win 1).blk t).view.emb (ix2 k q)))
      = ∑ k : Fin 128, lhs0 V c (ix2 ((((cfg0.win 2).blk t).view.emb (ix2 p q)) 0) k) * rhs0 V c (ix2 k ((((cfg0.win 2).blk t).view.emb (ix2 p q)) 1))
  refine Finset.sum_congr rfl fun k _ => ?_
  -- the input block's entry (p, k) is in the output entry's row, at column k
  have h0 : ((cfg0.win 0).blk t).view.emb (ix2 p k) = ix2 ((((cfg0.win 2).blk t).view.emb (ix2 p q)) 0) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 128 + 1 * k.val = k.val; omega
  -- the weight block's entry (k, q) is at row k, in the output entry's column
  have h1 : ((cfg0.win 1).blk t).view.emb (ix2 k q) = ix2 k ((((cfg0.win 2).blk t).view.emb (ix2 p q)) 1) := by
    funext a; apply Fin.ext
    match a with
    | ⟨0, _⟩ => show win0_1.index t (0 : Fin 2) * 128 + 1 * k.val = k.val; omega
    | ⟨1, _⟩ => show win0_1.index t (1 : Fin 2) * 128 + 1 * q.val = win0_2.index t (1 : Fin 2) * 128 + 1 * q.val; omega
  exact congrArg₂ (fun a b : EReal => a * b) (congrArg (lhs0 V c) h0) (congrArg (rhs0 V c) h1)

/-- An index of the output table is in point t's block iff each coordinate is in the block's range on its axis. -/
private theorem mm_mem_blk0 (t : Fin cfg0.N) (i : S100000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v37).slice (win0_2.rect t)).set ↔ _
  rw [View.set_slice_whole, Rect.mem_set_unit]
  exact Iff.rfl

/-- Row r of the output table lies in the block of point r / 5000, and every point writes its block back. -/
private theorem mm_cover0 (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ : ∃ t : Fin cfg0.N, t.val = (i 0).val / 5000 :=
    ⟨⟨(i 0).val / 5000, Nat.lt_of_lt_of_eq (by omega : (i 0).val / 5000 < 20) N_0.symm⟩, rfl⟩
  obtain ⟨e0, e1, e2, e3, e4, e5⟩ := mm_idx_facts0 t
  refine ⟨t, flush0_2 t, ?_⟩
  rw [mm_mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

theorem reg0_arr (c : Dev nD) :
    (dat0 (F := Ideal) V c).arrAt 2 cfg0.N = Cert.GcnVals.mm (M := 100000) (K := 128) (N := 128) (V c main_arg0) (V c main_arg2) := by
  exact (dat0 (F := Ideal) V c).arrAt_eq_of_cover 2 (Cert.GcnVals.mm (M := 100000) (K := 128) (N := 128) (V c main_arg0) (V c main_arg2))
    (fun t _ => mm_flushed0_eq V c t) mm_cover0

end Cert.KernelIdeal.RegVal

end
-- ==== Proof.Reg1.lean ====
/-
  Region 1: the rows of a [1703936, 128] table each multiplied by that row's entry of a [1703936, 1] column.
  The grid has 208 points; point t reads rows 8192·t … 8192·t + 8191 of the table and of the column, multiplies entry
  (p, q) of the row block by entry (p, 0) of the column block, and writes the product block back at the same rows.
  Since 208 · 8192 = 1703936 the blocks fill the table, so after the last point the output table is, entry by entry,
  the input table's entry times its row's column entry.
-/
import proofs.«175999_j15590731285080_1_alg».proof.Proof.Gen.KernelIdeal.Frame
import proofs.«175999_j15590731285080_1_alg».proof.Proof.Vals
import Idealize.ShloMosaic.Lib.Pipeline.Value
import Idealize.ShloMosaic.PureOps.Ideal.Laws

noncomputable section

namespace Cert.KernelIdeal.RegVal

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A column [a, 1] spread over b columns reads, at (p, q), the column's entry of row p. -/
private theorem spread_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's product at (p, q): the row block's entry times the column block's entry of row p
    (the two casts keep the shape, the column is spread over the 128 columns, the product is entry by entry). -/
private theorem pay_apply (v0 : Vec Ideal S8192x1 .f32) (v4 : Vec Ideal S8192x128 .f32) (p : Fin 8192) (q : Fin 128) :
    k1_pay1 v0 v4 (ix2 p q) = v4 (ix2 p q) * v0 (ix2 p 0) := by
  unfold k1_pay1
  simp only [shapeCast_self]
  rw [mulf_apply, spread_column_apply]

private theorem hz : (![0, 0] : Fin 2 → Nat) = fun _ => 0 := funext fun a => by fin_cases a <;> rfl

/-- At every point the three windows sit at the same block: block row t, block column 0. -/
private theorem idx_facts : ∀ t : Fin cfg1.N, win1_2.index t (0 : Fin 2) = t.val ∧ win1_2.index t (1 : Fin 2) = 0
    ∧ win1_0.index t (0 : Fin 2) = t.val ∧ win1_0.index t (1 : Fin 2) = 0
    ∧ win1_1.index t (0 : Fin 2) = t.val ∧ win1_1.index t (1 : Fin 2) = 0 :=
  (by decide +kernel : ∀ t : Fin grid1.N, _)

/-- One entry of the body's result against one entry of the scaled table, over any blocks and tables that agree
    where the entry reads them. -/
private theorem point_eq (x0 : Vec Ideal S8192x128 .f32) (x1 : Vec Ideal S8192x1 .f32)
    (A : S1703936x128.Idx → EReal) (N : S1703936x1.Idx → EReal) (j : S8192x128.Idx) (i : S1703936x128.Idx)
    (h0 : x0 j = A i) (h1 : x1 (ix2 (j 0) 0) = N (ix2 (i 0) 0)) :
    k1_pay1 x1 x0 j = Cert.GcnVals.scaleRows (R := 1703936) (C := 128) A N i := by
  obtain ⟨p, q, rfl⟩ : ∃ (p : Fin 8192) (q : Fin 128), j = ix2 p q := ⟨j 0, j 1, eq_ix2 j⟩
  rw [pay_apply, h0]
  show A i * x1 (ix2 p 0) = A i * N (ix2 (i 0) 0)
  rw [← h1]

/-- What point t writes back is block t of the scaled table: an entry of a block sits in its table at
    block index × block size + its coordinate inside the block, and the three windows share the block index. -/
private theorem flushed_eq (c : Dev nD) (t : Fin cfg1.N) :
    (dat1 (F := Ideal) V c).flushed 2 t = ((cfg1.win 2).blk t).view.read (Elt Ideal)
      (Cert.GcnVals.scaleRows (R := 1703936) (C := 128) (V c main_v44) (V c main_v36)) := by
  show (cfg1.win 2).cut (grid1.coords t) ((dat1 V c).after 2 t) = _
  rw [after1_2]
  unfold out1_2
  rw [View.canon_unit_zero hz]
  simp only [View.ld_unit_zero (S := S8192x128) hz, View.ld_unit_zero (S := S8192x1) hz]
  obtain ⟨e0, e1, e2, e3, e4, e5⟩ := idx_facts t
  funext j
  show k1_pay1 (iblk1 V c 1 t) (iblk1 V c 0 t) j
      = Cert.GcnVals.scaleRows (R := 1703936) (C := 128) (V c main_v44) (V c main_v36) (((cfg1.win 2).blk t).view.emb j)
  refine point_eq _ _ _ _ j _ ?_ ?_
  · show V c main_v44 (((cfg1.win 0).blk t).view.emb j) = V c main_v44 (((cfg1.win 2).blk t).view.emb j)
    refine congrArg _ (funext fun a => Fin.ext ?_)
    match a with
    | ⟨0, _⟩ => show win1_0.index t (0 : Fin 2) * 8192 + 1 * (j 0).val = win1_2.index t (0 : Fin 2) * 8192 + 1 * (j 0).val; omega
    | ⟨1, _⟩ => show win1_0.index t (1 : Fin 2) * 128 + 1 * (j 1).val = win1_2.index t (1 : Fin 2) * 128 + 1 * (j 1).val; omega
  · show V c main_v36 (((cfg1.win 1).blk t).view.emb (ix2 (j 0) 0)) = V c main_v36 (ix2 ((((cfg1.win 2).blk t).view.emb j) 0) 0)
    refine congrArg _ (funext fun a => Fin.ext ?_)
    match a with
    | ⟨0, _⟩ => show win1_1.index t (0 : Fin 2) * 8192 + 1 * (j 0).val = win1_2.index t (0 : Fin 2) * 8192 + 1 * (j 0).val; omega
    | ⟨1, _⟩ => show win1_1.index t (1 : Fin 2) * 1 + 1 * 0 = 0; omega

/-- An index of the table is in point t's block iff each coordinate is in the block's range on its axis. -/
private theorem mem_blk (t : Fin cfg1.N) (i : S1703936x128.Idx) :
    i ∈ ((cfg1.win 2).blk t).view.set ↔ ∀ a : Fin 2, win1_2.index t a * S8192x128.size a ≤ (i a).val ∧ (i a).val < win1_2.index t a * S8192x128.size a + S8192x128.size a := by
  show i ∈ ((View.whole main_v45).slice (win1_2.rect t)).set ↔ _
  rw [View.set_slice_whole, Rect.mem_set_unit]
  exact Iff.rfl

/-- Row r of the table lies in the block of point r / 8192: the 208 blocks of 8192 rows fill the 1703936 rows. -/
private theorem cover (i : S1703936x128.Idx) :
    ∃ t : Fin cfg1.N, (cfg1.win 2).flush t = true ∧ i ∈ ((cfg1.win 2).blk t).view.set := by
  have hi0 : (i 0).val < 1703936 := (i 0).isLt
  have hi1 : (i 1).val < 128 := (i 1).isLt
  have ht : (i 0).val / 8192 < 208 := by omega
  let t : Fin cfg1.N := ⟨(i 0).val / 8192, ht⟩
  obtain ⟨e0, e1, -⟩ := idx_facts t
  have et : t.val = (i 0).val / 8192 := rfl
  refine ⟨t, flush1_2 t, ?_⟩
  rw [mem_blk]
  intro a
  match a with
  | ⟨0, _⟩ => show win1_2.index t (0 : Fin 2) * 8192 ≤ (i 0).val ∧ (i 0).val < win1_2.index t (0 : Fin 2) * 8192 + 8192; omega
  | ⟨1, _⟩ => show win1_2.index t (1 : Fin 2) * 128 ≤ (i 1).val ∧ (i 1).val < win1_2.index t (1 : Fin 2) * 128 + 128; omega

theorem reg1_arr (c : Dev nD) :
    (dat1 (F := Ideal) V c).arrAt 2 cfg1.N = Cert.GcnVals.scaleRows (R := 1703936) (C := 128) (V c main_v44) (V c main_v36) :=
  (dat1 V c).arrAt_eq_of_cover 2 _ (fun t _ => flushed_eq V c t) cover

end Cert.KernelIdeal.RegVal

end
-- ==== Proof.Reg2.lean ====
import proofs.«175999_j15590731285080_1_alg».proof.Proof.Gen.KernelIdeal.Frame
import proofs.«175999_j15590731285080_1_alg».proof.Proof.Vals
import proofs.«175999_j15590731285080_1_alg».proof.Proof.LibRowDims
import Idealize.ShloMosaic.Lib.Pipeline.Value
import Idealize.ShloMosaic.PureOps.Ideal.Laws

/-
  The second layer's product region: a grid of 20 points, point t taking rows 5000 t … 5000 t + 4999 of the
  [100000, 128] input table and the whole [128, 128] weight table, and writing back rows 5000 t … 5000 t + 4999 of the
  [100000, 128] output table. Over the extended reals the rounding of the operands is the identity and a product
  accumulated into zero is the plain sum, so each written row block is that row block of the plain product of the two
  tables as the region finds them; the 20 row blocks cover the output table, which therefore ends as the plain product.
-/

noncomputable section

namespace Cert.KernelIdeal.RegVal

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The zero offsets of a whole-buffer access. -/
private theorem zero_off2 : (![0, 0] : Fin 2 → Nat) = fun _ => 0 := funext fun a => by fin_cases a <;> rfl

/-- The body's stored value at entry (p, q) of its block: the sum over k of x (p, k) · w (k, q). The roundings to the
    narrower format are the identity over the extended reals, the reshape to the same shape reads the same entry, and the accumulator is zero. -/
private theorem mm_pay2_apply (x0 : Vec Ideal S5000x128 .f32) (x1 : Vec Ideal S128x128 .f32) (p : Fin 5000) (q : Fin 128) :
    k2_pay1 x0 x1 (ix2 p q) = ∑ k : Fin 128, x0 (ix2 p k) * x1 (ix2 k q) := by
  unfold k2_pay1
  rw [shapeCast_self]
  exact Idealize.ShloMosaic.RowDims.matmul_plain_zero_apply none x0 x1 p q

/-- The block indices over the grid: at point t the input and the output are at row block t, column block 0, and the
    weight table is always at its one block (0, 0). -/
private theorem mm_idx_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

/-- The two input tables as the region finds them, at their literal types. -/
private abbrev lhs2 (c : Dev nD) : (⟨2, ![100000, 128]⟩ : Shape).Idx → EReal := V c main_v52
private abbrev rhs2 (c : Dev nD) : (⟨2, ![128, 128]⟩ : Shape).Idx → EReal := V c main_arg4

set_option maxHeartbeats 400000 in
/-- What point t writes back is block t of the plain product of the two tables: entry (p, q) of the block is the sum
    over k of (input block) (p, k) · (weight block) (k, q); the input block's entry (p, k) is the table's entry
    (5000 t + p, k), the weight block is the weight table, and the output block's entry (p, q) sits at (5000 t + p, q). -/
private theorem mm_flushed2_eq (c : Dev nD) (t : Fin cfg2.N) :
    (dat2 (F := Ideal) V c).flushed 2 t = ((cfg2.win 2).blk t).view.read (Elt Ideal) (Cert.GcnVals.mm (M := 100000) (K := 128) (N := 128) (V c main_v52) (V c main_arg4)) := by
  show (cfg2.win 2).cut (grid2.coords t) ((dat2 (F := Ideal) V c).after 2 t) = _
  rw [after2_2]
  unfold out2_2
  rw [View.canon_unit_zero zero_off2]
  simp only [View.ld_unit_zero (S := S5000x128) zero_off2, View.ld_unit_zero (S := S128x128) zero_off2]
  obtain ⟨e0, e1, e2, e3, e4, e5⟩ := mm_idx_facts2 t
  funext j
  obtain ⟨p, q, rfl⟩ : ∃ (p : Fin 5000) (q : Fin 128), j = ix2 p q := ⟨j 0, j 1, eq_ix2 (n0 := 5000) (n1 := 128) j⟩
  refine (mm_pay2_apply (iblk2 V c 0 t) (iblk2 V c 1 t) p q).trans ?_
  show (∑ k : Fin 128, lhs2 V c (((cfg2.win 0).blk t).view.emb (ix2 p k)) * rhs2 V c (((cfg2.win 1).blk t).view.emb (ix2 k q)))
      = ∑ k : Fin 128, lhs2 V c (ix2 ((((cfg2.win 2).blk t).view.emb (ix2 p q)) 0) k) * rhs2 V c (ix2 k ((((cfg2.win 2).blk t).view.emb (ix2 p q)) 1))
  refine Finset.sum_congr rfl fun k _ => ?_
  -- the input block's entry (p, k) is in the output entry's row, at column k
  have h0 : ((cfg2.win 0).blk t).view.emb (ix2 p k) = ix2 ((((cfg2.win 2).blk t).view.emb (ix2 p q)) 0) k := by
    funext a; apply Fin.ext
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  -- the weight block's entry (k, q) is at row k, in the output entry's column
  have h1 : ((cfg2.win 1).blk t).view.emb (ix2 k q) = ix2 k ((((cfg2.win 2).blk t).view.emb (ix2 p q)) 1) := by
    funext a; apply Fin.ext
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  exact congrArg₂ (fun a b : EReal => a * b) (congrArg (lhs2 V c) h0) (congrArg (rhs2 V c) h1)

/-- An index of the output table is in point t's block iff each coordinate is in the block's range on its axis. -/
private theorem mm_mem_blk2 (t : Fin cfg2.N) (i : S100000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v53).slice (win2_2.rect t)).set ↔ _
  rw [View.set_slice_whole, Rect.mem_set_unit]
  exact Iff.rfl

/-- Row r of the output table lies in the block of point r / 5000, and every point writes its block back. -/
private theorem mm_cover2 (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ : ∃ t : Fin cfg2.N, t.val = (i 0).val / 5000 :=
    ⟨⟨(i 0).val / 5000, Nat.lt_of_lt_of_eq (by omega : (i 0).val / 5000 < 20) N_2.symm⟩, rfl⟩
  obtain ⟨e0, e1, e2, e3, e4, e5⟩ := mm_idx_facts2 t
  refine ⟨t, flush2_2 t, ?_⟩
  rw [mm_mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

theorem reg2_arr (c : Dev nD) :
    (dat2 (F := Ideal) V c).arrAt 2 cfg2.N = Cert.GcnVals.mm (M := 100000) (K := 128) (N := 128) (V c main_v52) (V c main_arg4) := by
  exact (dat2 (F := Ideal) V c).arrAt_eq_of_cover 2 (Cert.GcnVals.mm (M := 100000) (K := 128) (N := 128) (V c main_v52) (V c main_arg4))
    (fun t _ => mm_flushed2_eq V c t) mm_cover2

end Cert.KernelIdeal.RegVal

end
-- ==== Proof.Reg3.lean ====
/-
  Region 3: the rows of a [1703936, 128] table each multiplied by that row's entry of a [1703936, 1] column.
  The grid has 208 points; point t reads rows 8192·t … 8192·t + 8191 of the table and of the column, multiplies entry
  (p, q) of the row block by entry (p, 0) of the column block, and writes the product block back at the same rows.
  Since 208 · 8192 = 1703936 the blocks fill the table, so after the last point the output table is, entry by entry,
  the input table's entry times its row's column entry.
-/
import proofs.«175999_j15590731285080_1_alg».proof.Proof.Gen.KernelIdeal.Frame
import proofs.«175999_j15590731285080_1_alg».proof.Proof.Vals
import Idealize.ShloMosaic.Lib.Pipeline.Value
import Idealize.ShloMosaic.PureOps.Ideal.Laws

noncomputable section

namespace Cert.KernelIdeal.RegVal

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A column [a, 1] spread over b columns reads, at (p, q), the column's entry of row p. -/
private theorem spread_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's product at (p, q): the row block's entry times the column block's entry of row p
    (the two casts keep the shape, the column is spread over the 128 columns, the product is entry by entry). -/
private theorem pay_apply (v0 : Vec Ideal S8192x1 .f32) (v4 : Vec Ideal S8192x128 .f32) (p : Fin 8192) (q : Fin 128) :
    k3_pay1 v0 v4 (ix2 p q) = v4 (ix2 p q) * v0 (ix2 p 0) := by
  unfold k3_pay1
  simp only [shapeCast_self]
  rw [mulf_apply, spread_column_apply]

private theorem hz : (![0, 0] : Fin 2 → Nat) = fun _ => 0 := funext fun a => by fin_cases a <;> rfl

/-- At every point the three windows sit at the same block: block row t, block column 0. -/
private theorem idx_facts : ∀ t : Fin cfg3.N, win3_2.index t (0 : Fin 2) = t.val ∧ win3_2.index t (1 : Fin 2) = 0
    ∧ win3_0.index t (0 : Fin 2) = t.val ∧ win3_0.index t (1 : Fin 2) = 0
    ∧ win3_1.index t (0 : Fin 2) = t.val ∧ win3_1.index t (1 : Fin 2) = 0 :=
  (by decide +kernel : ∀ t : Fin grid3.N, _)

/-- One entry of the body's result against one entry of the scaled table, over any blocks and tables that agree
    where the entry reads them. -/
private theorem point_eq (x0 : Vec Ideal S8192x128 .f32) (x1 : Vec Ideal S8192x1 .f32)
    (A : S1703936x128.Idx → EReal) (N : S1703936x1.Idx → EReal) (j : S8192x128.Idx) (i : S1703936x128.Idx)
    (h0 : x0 j = A i) (h1 : x1 (ix2 (j 0) 0) = N (ix2 (i 0) 0)) :
    k3_pay1 x1 x0 j = Cert.GcnVals.scaleRows (R := 1703936) (C := 128) A N i := by
  obtain ⟨p, q, rfl⟩ : ∃ (p : Fin 8192) (q : Fin 128), j = ix2 p q := ⟨j 0, j 1, eq_ix2 j⟩
  rw [pay_apply, h0]
  show A i * x1 (ix2 p 0) = A i * N (ix2 (i 0) 0)
  rw [← h1]

/-- What point t writes back is block t of the scaled table: an entry of a block sits in its table at
    block index × block size + its coordinate inside the block, and the three windows share the block index. -/
private theorem flushed_eq (c : Dev nD) (t : Fin cfg3.N) :
    (dat3 (F := Ideal) V c).flushed 2 t = ((cfg3.win 2).blk t).view.read (Elt Ideal)
      (Cert.GcnVals.scaleRows (R := 1703936) (C := 128) (V c main_v60) (V c main_v36)) := by
  show (cfg3.win 2).cut (grid3.coords t) ((dat3 V c).after 2 t) = _
  rw [after3_2]
  unfold out3_2
  rw [View.canon_unit_zero hz]
  simp only [View.ld_unit_zero (S := S8192x128) hz, View.ld_unit_zero (S := S8192x1) hz]
  obtain ⟨e0, e1, e2, e3, e4, e5⟩ := idx_facts t
  funext j
  show k3_pay1 (iblk3 V c 1 t) (iblk3 V c 0 t) j
      = Cert.GcnVals.scaleRows (R := 1703936) (C := 128) (V c main_v60) (V c main_v36) (((cfg3.win 2).blk t).view.emb j)
  refine point_eq _ _ _ _ j _ ?_ ?_
  · show V c main_v60 (((cfg3.win 0).blk t).view.emb j) = V c main_v60 (((cfg3.win 2).blk t).view.emb j)
    refine congrArg _ (funext fun a => Fin.ext ?_)
    match a with
    | ⟨0, _⟩ => show win3_0.index t (0 : Fin 2) * 8192 + 1 * (j 0).val = win3_2.index t (0 : Fin 2) * 8192 + 1 * (j 0).val; omega
    | ⟨1, _⟩ => show win3_0.index t (1 : Fin 2) * 128 + 1 * (j 1).val = win3_2.index t (1 : Fin 2) * 128 + 1 * (j 1).val; omega
  · show V c main_v36 (((cfg3.win 1).blk t).view.emb (ix2 (j 0) 0)) = V c main_v36 (ix2 ((((cfg3.win 2).blk t).view.emb j) 0) 0)
    refine congrArg _ (funext fun a => Fin.ext ?_)
    match a with
    | ⟨0, _⟩ => show win3_1.index t (0 : Fin 2) * 8192 + 1 * (j 0).val = win3_2.index t (0 : Fin 2) * 8192 + 1 * (j 0).val; omega
    | ⟨1, _⟩ => show win3_1.index t (1 : Fin 2) * 1 + 1 * 0 = 0; omega

/-- An index of the table is in point t's block iff each coordinate is in the block's range on its axis. -/
private theorem mem_blk (t : Fin cfg3.N) (i : S1703936x128.Idx) :
    i ∈ ((cfg3.win 2).blk t).view.set ↔ ∀ a : Fin 2, win3_2.index t a * S8192x128.size a ≤ (i a).val ∧ (i a).val < win3_2.index t a * S8192x128.size a + S8192x128.size a := by
  show i ∈ ((View.whole main_v61).slice (win3_2.rect t)).set ↔ _
  rw [View.set_slice_whole, Rect.mem_set_unit]
  exact Iff.rfl

/-- Row r of the table lies in the block of point r / 8192: the 208 blocks of 8192 rows fill the 1703936 rows. -/
private theorem cover (i : S1703936x128.Idx) :
    ∃ t : Fin cfg3.N, (cfg3.win 2).flush t = true ∧ i ∈ ((cfg3.win 2).blk t).view.set := by
  have hi0 : (i 0).val < 1703936 := (i 0).isLt
  have hi1 : (i 1).val < 128 := (i 1).isLt
  have ht : (i 0).val / 8192 < 208 := by omega
  let t : Fin cfg3.N := ⟨(i 0).val / 8192, ht⟩
  obtain ⟨e0, e1, -⟩ := idx_facts t
  have et : t.val = (i 0).val / 8192 := rfl
  refine ⟨t, flush3_2 t, ?_⟩
  rw [mem_blk]
  intro a
  match a with
  | ⟨0, _⟩ => show win3_2.index t (0 : Fin 2) * 8192 ≤ (i 0).val ∧ (i 0).val < win3_2.index t (0 : Fin 2) * 8192 + 8192; omega
  | ⟨1, _⟩ => show win3_2.index t (1 : Fin 2) * 128 ≤ (i 1).val ∧ (i 1).val < win3_2.index t (1 : Fin 2) * 128 + 128; omega

theorem reg3_arr (c : Dev nD) :
    (dat3 (F := Ideal) V c).arrAt 2 cfg3.N = Cert.GcnVals.scaleRows (R := 1703936) (C := 128) (V c main_v60) (V c main_v36) :=
  (dat3 V c).arrAt_eq_of_cover 2 _ (fun t _ => flushed_eq V c t) cover

end Cert.KernelIdeal.RegVal

end
-- ==== Proof.Reg4.lean ====
import proofs.«175999_j15590731285080_1_alg».proof.Proof.Gen.KernelIdeal.Frame
import proofs.«175999_j15590731285080_1_alg».proof.Proof.Vals
import proofs.«175999_j15590731285080_1_alg».proof.Proof.LibRowDims
import Idealize.ShloMosaic.Lib.Pipeline.Value
import Idealize.ShloMosaic.PureOps.Ideal.Laws

/-
  The third layer's product region: a grid of 20 points, point t taking rows 5000 t … 5000 t + 4999 of the
  [100000, 128] input table and the whole [128, 40] weight table, and writing back rows 5000 t … 5000 t + 4999 of the
  [100000, 40] output table. Over the extended reals the rounding of the operands is the identity and a product
  accumulated into zero is the plain sum, so each written row block is that row block of the plain product of the two
  tables as the region finds them; the 20 row blocks cover the output table, which therefore ends as the plain product.
-/

noncomputable section

namespace Cert.KernelIdeal.RegVal

open Cert.KernelIdeal Cert.KernelIdeal.Gen Idealize.ShloMosaic Idealize.ShloMosaic.TcCoe Idealize.ShloMosaic.ValueIdx Idealize.SL.Sem
open Idealize.ShloMosaic.Pipeline (Dat Cfg Window)
open scoped BigOperators

variable (V : (c : Dev nD) → (b : Ref sig .tc) → Buf (Elt Ideal) ((c : Thread nD τ).loc b))

/-- The zero offsets of a whole-buffer access. -/
private theorem zero_off4 : (![0, 0] : Fin 2 → Nat) = fun _ => 0 := funext fun a => by fin_cases a <;> rfl

/-- The body's stored value at entry (p, q) of its block: the sum over k of x (p, k) · w (k, q). The roundings to the
    narrower format are the identity over the extended reals, the reshape to the same shape reads the same entry, and the accumulator is zero. -/
private theorem mm_pay4_apply (x0 : Vec Ideal S5000x128 .f32) (x1 : Vec Ideal S128x40 .f32) (p : Fin 5000) (q : Fin 40) :
    k4_pay1 x0 x1 (ix2 p q) = ∑ k : Fin 128, x0 (ix2 p k) * x1 (ix2 k q) := by
  unfold k4_pay1
  rw [shapeCast_self]
  exact Idealize.ShloMosaic.RowDims.matmul_plain_zero_apply none x0 x1 p q

/-- The block indices over the grid: at point t the input and the output are at row block t, column block 0, and the
    weight table is always at its one block (0, 0). -/
private theorem mm_idx_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

/-- The two input tables as the region finds them, at their literal types. -/
private abbrev lhs4 (c : Dev nD) : (⟨2, ![100000, 128]⟩ : Shape).Idx → EReal := V c main_v68
private abbrev rhs4 (c : Dev nD) : (⟨2, ![128, 40]⟩ : Shape).Idx → EReal := V c main_arg6

set_option maxHeartbeats 400000 in
/-- What point t writes back is block t of the plain product of the two tables: entry (p, q) of the block is the sum
    over k of (input block) (p, k) · (weight block) (k, q); the input block's entry (p, k) is the table's entry
    (5000 t + p, k), the weight block is the weight table, and the output block's entry (p, q) sits at (5000 t + p, q). -/
private theorem mm_flushed4_eq (c : Dev nD) (t : Fin cfg4.N) :
    (dat4 (F := Ideal) V c).flushed 2 t = ((cfg4.win 2).blk t).view.read (Elt Ideal) (Cert.GcnVals.mm (M := 100000) (K := 128) (N := 40) (V c main_v68) (V c main_arg6)) := by
  show (cfg4.win 2).cut (grid4.coords t) ((dat4 (F := Ideal) V c).after 2 t) = _
  rw [after4_2]
  unfold out4_2
  rw [View.canon_unit_zero zero_off4]
  simp only [View.ld_unit_zero (S := S5000x128) zero_off4, View.ld_unit_zero (S := S128x40) zero_off4]
  obtain ⟨e0, e1, e2, e3, e4, e5⟩ := mm_idx_facts4 t
  funext j
  obtain ⟨p, q, rfl⟩ : ∃ (p : Fin 5000) (q : Fin 40), j = ix2 p q := ⟨j 0, j 1, eq_ix2 (n0 := 5000) (n1 := 40) j⟩
  refine (mm_pay4_apply (iblk4 V c 0 t) (iblk4 V c 1 t) p q).trans ?_
  show (∑ k : Fin 128, lhs4 V c (((cfg4.win 0).blk t).view.emb (ix2 p k)) * rhs4 V c (((cfg4.win 1).blk t).view.emb (ix2 k q)))
      = ∑ k : Fin 128, lhs4 V c (ix2 ((((cfg4.win 2).blk t).view.emb (ix2 p q)) 0) k) * rhs4 V c (ix2 k ((((cfg4.win 2).blk t).view.emb (ix2 p q)) 1))
  refine Finset.sum_congr rfl fun k _ => ?_
  -- the input block's entry (p, k) is in the output entry's row, at column k
  have h0 : ((cfg4.win 0).blk t).view.emb (ix2 p k) = ix2 ((((cfg4.win 2).blk t).view.emb (ix2 p q)) 0) k := by
    funext a; apply Fin.ext
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * k.val = k.val; omega
  -- the weight block's entry (k, q) is at row k, in the output entry's column
  have h1 : ((cfg4.win 1).blk t).view.emb (ix2 k q) = ix2 k ((((cfg4.win 2).blk t).view.emb (ix2 p q)) 1) := by
    funext a; apply Fin.ext
    match a with
    | ⟨0, _⟩ => show win4_1.index t (0 : Fin 2) * 128 + 1 * k.val = k.val; omega
    | ⟨1, _⟩ => show win4_1.index t (1 : Fin 2) * 40 + 1 * q.val = win4_2.index t (1 : Fin 2) * 40 + 1 * q.val; omega
  exact congrArg₂ (fun a b : EReal => a * b) (congrArg (lhs4 V c) h0) (congrArg (rhs4 V c) h1)

/-- An index of the output table is in point t's block iff each coordinate is in the block's range on its axis. -/
private theorem mm_mem_blk4 (t : Fin cfg4.N) (i : S100000x40.Idx) :
    i ∈ ((cfg4.win 2).blk t).view.set ↔ ∀ a : Fin 2, win4_2.index t a * S5000x40.size a ≤ (i a).val ∧ (i a).val < win4_2.index t a * S5000x40.size a + S5000x40.size a := by
  show i ∈ ((View.whole main_v69).slice (win4_2.rect t)).set ↔ _
  rw [View.set_slice_whole, Rect.mem_set_unit]
  exact Iff.rfl

/-- Row r of the output table lies in the block of point r / 5000, and every point writes its block back. -/
private theorem mm_cover4 (i : S100000x40.Idx) :
    ∃ t : Fin cfg4.N, (cfg4.win 2).flush t = true ∧ i ∈ ((cfg4.win 2).blk t).view.set := by
  have hi0 : (i 0).val < 100000 := (i 0).isLt
  have hi1 : (i 1).val < 40 := (i 1).isLt
  obtain ⟨t, ht⟩ : ∃ t : Fin cfg4.N, t.val = (i 0).val / 5000 :=
    ⟨⟨(i 0).val / 5000, Nat.lt_of_lt_of_eq (by omega : (i 0).val / 5000 < 20) N_4.symm⟩, rfl⟩
  obtain ⟨e0, e1, e2, e3, e4, e5⟩ := mm_idx_facts4 t
  refine ⟨t, flush4_2 t, ?_⟩
  rw [mm_mem_blk4]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 40 ≤ (i 1).val ∧ (i 1).val < win4_2.index t (1 : Fin 2) * 40 + 40; omega

theorem reg4_arr (c : Dev nD) :
    (dat4 (F := Ideal) V c).arrAt 2 cfg4.N = Cert.GcnVals.mm (M := 100000) (K := 128) (N := 40) (V c main_v68) (V c main_arg6) := by
  exact (dat4 (F := Ideal) V c).arrAt_eq_of_cover 2 (Cert.GcnVals.mm (M := 100000) (K := 128) (N := 40) (V c main_v68) (V c main_arg6))
    (fun t _ => mm_flushed4_eq V c t) mm_cover4

end Cert.KernelIdeal.RegVal

end
-- ==== Proof.Reg5.lean ====
/-
  Region 5: the rows of a [1703936, 40] table each multiplied by that row's entry of a [1703936, 1] column.
  The grid has 208 points; point t reads rows 8192·t … 8192·t + 8191 of the table and of the column, multiplies entry
  (p, q) of the row block by entry (p, 0) of the column block, and writes the product block back at the same rows.
  Since 208 · 8192 = 1703936 the blocks fill the table, so after the last point the output table is, entry by entry,
  the input table's entry times its row's column entry.
-/
import proofs.«175999_j15590731285080_1_alg».proof.Proof.Gen.KernelIdeal.Frame
import proofs.«175999_j15590731285080_1_alg».proof.Proof.Vals
import Idealize.ShloMosaic.Lib.Pipeline.Value
import Idealize.ShloMosaic.PureOps.Ideal.Laws

noncomputable section

namespace Cert.KernelIdeal.RegVal

open Cert.KernelIdeal Cert.KernelIdeal.Gen Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-- A column [a, 1] spread over b columns reads, at (p, q), the column's entry of row p. -/
private theorem spread_column_apply {α : Type} {a b : ℕ} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- The body's product at (p, q): the row block's entry times the column block's entry of row p
    (the two casts keep the shape, the column is spread over the 40 columns, the product is entry by entry). -/
private theorem pay_apply (v0 : Vec Ideal S8192x1 .f32) (v4 : Vec Ideal S8192x40 .f32) (p : Fin 8192) (q : Fin 40) :
    k5_pay1 v0 v4 (ix2 p q) = v4 (ix2 p q) * v0 (ix2 p 0) := by
  unfold k5_pay1
  simp only [shapeCast_self]
  rw [mulf_apply, spread_column_apply]

private theorem hz : (![0, 0] : Fin 2 → Nat) = fun _ => 0 := funext fun a => by fin_cases a <;> rfl

/-- At every point the three windows sit at the same block: block row t, block column 0. -/
private theorem idx_facts : ∀ t : Fin cfg5.N, win5_2.index t (0 : Fin 2) = t.val ∧ win5_2.index t (1 : Fin 2) = 0
    ∧ win5_0.index t (0 : Fin 2) = t.val ∧ win5_0.index t (1 : Fin 2) = 0
    ∧ win5_1.index t (0 : Fin 2) = t.val ∧ win5_1.index t (1 : Fin 2) = 0 :=
  (by decide +kernel : ∀ t : Fin grid5.N, _)

/-- One entry of the body's result against one entry of the scaled table, over any blocks and tables that agree
    where the entry reads them. -/
private theorem point_eq (x0 : Vec Ideal S8192x40 .f32) (x1 : Vec Ideal S8192x1 .f32)
    (A : S1703936x40.Idx → EReal) (N : S1703936x1.Idx → EReal) (j : S8192x40.Idx) (i : S1703936x40.Idx)
    (h0 : x0 j = A i) (h1 : x1 (ix2 (j 0) 0) = N (ix2 (i 0) 0)) :
    k5_pay1 x1 x0 j = Cert.GcnVals.scaleRows (R := 1703936) (C := 40) A N i := by
  obtain ⟨p, q, rfl⟩ : ∃ (p : Fin 8192) (q : Fin 40), j = ix2 p q := ⟨j 0, j 1, eq_ix2 j⟩
  rw [pay_apply, h0]
  show A i * x1 (ix2 p 0) = A i * N (ix2 (i 0) 0)
  rw [← h1]

/-- What point t writes back is block t of the scaled table: an entry of a block sits in its table at
    block index × block size + its coordinate inside the block, and the three windows share the block index. -/
private theorem flushed_eq (c : Dev nD) (t : Fin cfg5.N) :
    (dat5 (F := Ideal) V c).flushed 2 t = ((cfg5.win 2).blk t).view.read (Elt Ideal)
      (Cert.GcnVals.scaleRows (R := 1703936) (C := 40) (V c main_v76) (V c main_v36)) := by
  show (cfg5.win 2).cut (grid5.coords t) ((dat5 V c).after 2 t) = _
  rw [after5_2]
  unfold out5_2
  rw [View.canon_unit_zero hz]
  simp only [View.ld_unit_zero (S := S8192x40) hz, View.ld_unit_zero (S := S8192x1) hz]
  obtain ⟨e0, e1, e2, e3, e4, e5⟩ := idx_facts t
  funext j
  show k5_pay1 (iblk5 V c 1 t) (iblk5 V c 0 t) j
      = Cert.GcnVals.scaleRows (R := 1703936) (C := 40) (V c main_v76) (V c main_v36) (((cfg5.win 2).blk t).view.emb j)
  refine point_eq _ _ _ _ j _ ?_ ?_
  · show V c main_v76 (((cfg5.win 0).blk t).view.emb j) = V c main_v76 (((cfg5.win 2).blk t).view.emb j)
    refine congrArg _ (funext fun a => Fin.ext ?_)
    match a with
    | ⟨0, _⟩ => show win5_0.index t (0 : Fin 2) * 8192 + 1 * (j 0).val = win5_2.index t (0 : Fin 2) * 8192 + 1 * (j 0).val; omega
    | ⟨1, _⟩ => show win5_0.index t (1 : Fin 2) * 40 + 1 * (j 1).val = win5_2.index t (1 : Fin 2) * 40 + 1 * (j 1).val; omega
  · show V c main_v36 (((cfg5.win 1).blk t).view.emb (ix2 (j 0) 0)) = V c main_v36 (ix2 ((((cfg5.win 2).blk t).view.emb j) 0) 0)
    refine congrArg _ (funext fun a => Fin.ext ?_)
    match a with
    | ⟨0, _⟩ => show win5_1.index t (0 : Fin 2) * 8192 + 1 * (j 0).val = win5_2.index t (0 : Fin 2) * 8192 + 1 * (j 0).val; omega
    | ⟨1, _⟩ => show win5_1.index t (1 : Fin 2) * 1 + 1 * 0 = 0; omega

/-- An index of the table is in point t's block iff each coordinate is in the block's range on its axis. -/
private theorem mem_blk (t : Fin cfg5.N) (i : S1703936x40.Idx) :
    i ∈ ((cfg5.win 2).blk t).view.set ↔ ∀ a : Fin 2, win5_2.index t a * S8192x40.size a ≤ (i a).val ∧ (i a).val < win5_2.index t a * S8192x40.size a + S8192x40.size a := by
  show i ∈ ((View.whole main_v77).slice (win5_2.rect t)).set ↔ _
  rw [View.set_slice_whole, Rect.mem_set_unit]
  exact Iff.rfl

/-- Row r of the table lies in the block of point r / 8192: the 208 blocks of 8192 rows fill the 1703936 rows. -/
private theorem cover (i : S1703936x40.Idx) :
    ∃ t : Fin cfg5.N, (cfg5.win 2).flush t = true ∧ i ∈ ((cfg5.win 2).blk t).view.set := by
  have hi0 : (i 0).val < 1703936 := (i 0).isLt
  have hi1 : (i 1).val < 40 := (i 1).isLt
  have ht : (i 0).val / 8192 < 208 := by omega
  let t : Fin cfg5.N := ⟨(i 0).val / 8192, ht⟩
  obtain ⟨e0, e1, -⟩ := idx_facts t
  have et : t.val = (i 0).val / 8192 := rfl
  refine ⟨t, flush5_2 t, ?_⟩
  rw [mem_blk]
  intro a
  match a with
  | ⟨0, _⟩ => show win5_2.index t (0 : Fin 2) * 8192 ≤ (i 0).val ∧ (i 0).val < win5_2.index t (0 : Fin 2) * 8192 + 8192; omega
  | ⟨1, _⟩ => show win5_2.index t (1 : Fin 2) * 40 ≤ (i 1).val ∧ (i 1).val < win5_2.index t (1 : Fin 2) * 40 + 40; omega

theorem reg5_arr (c : Dev nD) :
    (dat5 (F := Ideal) V c).arrAt 2 cfg5.N = Cert.GcnVals.scaleRows (R := 1703936) (C := 40) (V c main_v76) (V c main_v36) :=
  (dat5 V c).arrAt_eq_of_cover 2 _ (fun t _ => flushed_eq V c t) cover

end Cert.KernelIdeal.RegVal

end
-- ==== Proof.Fold.lean ====
/-
  The idealized kernel's result array, read back through @main: after the last host stretch it is the third layer's
  bias added to the scatter-add of that layer's scaled messages, and so on down to the argument arrays. Each region's
  output array enters through its value (the plain product of its two input arrays, or the rows of one scaled by the
  other's column), every buffer a later segment reads is carried back to the segment that wrote it, and the result is
  ONE composed term: three times (product, row gather at the padded source list, scaling by the padded weights,
  scatter-add at the padded destination list, bias), with a maximum against zero between the layers.
-/
import proofs.«175999_j15590731285080_1_alg».proof.Proof.Gen.KernelIdeal.Frame
import proofs.«175999_j15590731285080_1_alg».proof.Proof.Vals
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.Pipeline (Dat Cfg Window)

section Carry

variable {F : FTy → Type} [FloatOps F]
variable (m : (ℓ : Loc nD τ sig) → Buf (Elt F) ℓ) (ρ : Dev nD → PrngReg) (c : Dev nD)

/-! ## What each host stretch writes, and that it writes nothing else -/

/-- The buffers the three stretches before the first region write. -/
def wr0 : List (Ref sig .tc) :=
  [main_v0, main_v1, main_v2, main_v3, main_v4, main_v5, main_v6, main_cst, main_v7, main_cst_0, main_v8, main_v9, main_v10,
   main_cst_1, main_v11, main_v12, main_v13, main_cst_2, main_call0_v0, main_call0_v1, main_v14,
   main_c, main_v15, main_v16, main_c_3, main_v17, main_v18, main_v19, main_v20, main_v21, main_c_4, main_v22, main_v23,
   main_c_5, main_v24, main_v25, main_v26, main_v27, main_v28, main_v29, main_c_6, main_v30, main_v31, main_c_7, main_v32,
   main_v33, main_cst_8, main_v34, main_v35, main_v36]
def wr1 : List (Ref sig .tc) := [main_c_9, main_v38, main_v39, main_c_10, main_v40, main_v41, main_v42, main_v43, main_v44]
def wr2 : List (Ref sig .tc) := [main_cst_11, main_v46, main_v47, main_v48, main_v49, main_v50, main_v51, main_call1_cst, main_call1_v0, main_v52]
def wr3 : List (Ref sig .tc) := [main_c_12, main_v54, main_v55, main_c_13, main_v56, main_v57, main_v58, main_v59, main_v60]
def wr4 : List (Ref sig .tc) := [main_cst_14, main_v62, main_v63, main_v64, main_v65, main_v66, main_v67, main_call2_cst, main_call2_v0, main_v68]
def wr5 : List (Ref sig .tc) := [main_c_15, main_v70, main_v71, main_c_16, main_v72, main_v73, main_v74, main_v75, main_v76]

set_option maxHeartbeats 4000000 in
theorem hW0 : (hostOps0 ++ (hostOps0_1 ++ hostOps0_2) : List (HloOp τ sig (Elt F))).Forall fun op => op.writes ⊆ (wr0.map (Proc.devRef (τ := τ) .tc)).toFinset := by
  simp only [hostOps0, hostOps0_1, hostOps0_2, List.cons_append, List.nil_append, List.Forall, nullary_writes, unary_writes, binary_writes, ternary_writes, reshape_writes, Finset.singleton_subset_iff]
  simp [wr0]
theorem hW1 : (hostOps1 : List (HloOp τ sig (Elt F))).Forall fun op => op.writes ⊆ (wr1.map (Proc.devRef (τ := τ) .tc)).toFinset := by
  simp only [hostOps1, List.Forall, nullary_writes, unary_writes, binary_writes, ternary_writes, reshape_writes, Finset.singleton_subset_iff]
  simp [wr1]
theorem hW2 : (hostOps2 ++ hostOps2_1 : List (HloOp τ sig (Elt F))).Forall fun op => op.writes ⊆ (wr2.map (Proc.devRef (τ := τ) .tc)).toFinset := by
  simp only [hostOps2, hostOps2_1, List.cons_append, List.nil_append, List.Forall, nullary_writes, unary_writes, binary_writes, ternary_writes, reshape_writes, Finset.singleton_subset_iff]
  simp [wr2]
theorem hW3 : (hostOps3 : List (HloOp τ sig (Elt F))).Forall fun op => op.writes ⊆ (wr3.map (Proc.devRef (τ := τ) .tc)).toFinset := by
  simp only [hostOps3, List.Forall, nullary_writes, unary_writes, binary_writes, ternary_writes, reshape_writes, Finset.singleton_subset_iff]
  simp [wr3]
theorem hW4 : (hostOps4 ++ hostOps4_1 : List (HloOp τ sig (Elt F))).Forall fun op => op.writes ⊆ (wr4.map (Proc.devRef (τ := τ) .tc)).toFinset := by
  simp only [hostOps4, hostOps4_1, List.cons_append, List.nil_append, List.Forall, nullary_writes, unary_writes, binary_writes, ternary_writes, reshape_writes, Finset.singleton_subset_iff]
  simp [wr4]
theorem hW5 : (hostOps5 : List (HloOp τ sig (Elt F))).Forall fun op => op.writes ⊆ (wr5.map (Proc.devRef (τ := τ) .tc)).toFinset := by
  simp only [hostOps5, List.Forall, nullary_writes, unary_writes, binary_writes, ternary_writes, reshape_writes, Finset.singleton_subset_iff]
  simp [wr5]

/-- A buffer the first three stretches do not write holds its launch contents when the first region is entered. -/
theorem keepH0 (b : Ref sig .tc) (hb : b ∉ wr0) : W3 m ρ c (Proc.devRef .tc b) = m ((c : Thread nD τ).loc b) := by
  show StableHlo.after hostOps0_2 (StableHlo.after hostOps0_1 (StableHlo.after hostOps0 (W0 m ρ c))) (Proc.devRef .tc b) = _
  rw [← StableHlo.after_append, ← StableHlo.after_append]
  exact (StableHlo.after_of_writes_sub _ _ hW0 hb).trans rfl
theorem keepH1 (b : Ref sig .tc) (hb : b ∉ wr1) : W5 m ρ c (Proc.devRef .tc b) = W4 m ρ c (Proc.devRef .tc b) :=
  StableHlo.after_of_writes_sub hostOps1 _ hW1 hb
theorem keepH2 (b : Ref sig .tc) (hb : b ∉ wr2) : W8 m ρ c (Proc.devRef .tc b) = W6 m ρ c (Proc.devRef .tc b) := by
  show StableHlo.after hostOps2_1 (StableHlo.after hostOps2 (W6 m ρ c)) (Proc.devRef .tc b) = _
  rw [← StableHlo.after_append]
  exact StableHlo.after_of_writes_sub _ _ hW2 hb
theorem keepH3 (b : Ref sig .tc) (hb : b ∉ wr3) : W10 m ρ c (Proc.devRef .tc b) = W9 m ρ c (Proc.devRef .tc b) :=
  StableHlo.after_of_writes_sub hostOps3 _ hW3 hb
theorem keepH4 (b : Ref sig .tc) (hb : b ∉ wr4) : W13 m ρ c (Proc.devRef .tc b) = W11 m ρ c (Proc.devRef .tc b) := by
  show StableHlo.after hostOps4_1 (StableHlo.after hostOps4 (W11 m ρ c)) (Proc.devRef .tc b) = _
  rw [← StableHlo.after_append]
  exact StableHlo.after_of_writes_sub _ _ hW4 hb
theorem keepH5 (b : Ref sig .tc) (hb : b ∉ wr5) : W15 m ρ c (Proc.devRef .tc b) = W14 m ρ c (Proc.devRef .tc b) :=
  StableHlo.after_of_writes_sub hostOps5 _ hW5 hb

/-! ## A region changes its output array only -/

theorem keepR0 (b : Ref sig .tc) (hb : b ≠ main_v37) : W4 m ρ c (Proc.devRef .tc b) = W3 m ρ c (Proc.devRef .tc b) := by
  by_cases h0 : b = main_arg0
  · subst h0; exact (W4_arr m ρ c 0).trans (((dat0 (V3 m ρ) c).arrAt_in 0 rfl _).trans (A_eq0 (V3 m ρ) c 0))
  by_cases h1 : b = main_arg2
  · subst h1; exact (W4_arr m ρ c 1).trans (((dat0 (V3 m ρ) c).arrAt_in 1 rfl _).trans (A_eq0 (V3 m ρ) c 1))
  exact W4_of_ne m ρ c b (fun w => match w with
    | ⟨0, _⟩ => fun e => h0 e.symm
    | ⟨1, _⟩ => fun e => h1 e.symm
    | ⟨2, _⟩ => fun e => hb e.symm)
theorem keepR1 (b : Ref sig .tc) (hb : b ≠ main_v45) : W6 m ρ c (Proc.devRef .tc b) = W5 m ρ c (Proc.devRef .tc b) := by
  by_cases h0 : b = main_v44
  · subst h0; exact (W6_arr m ρ c 0).trans (((dat1 (V5 m ρ) c).arrAt_in 0 rfl _).trans (A_eq1 (V5 m ρ) c 0))
  by_cases h1 : b = main_v36
  · subst h1; exact (W6_arr m ρ c 1).trans (((dat1 (V5 m ρ) c).arrAt_in 1 rfl _).trans (A_eq1 (V5 m ρ) c 1))
  exact W6_of_ne m ρ c b (fun w => match w with
    | ⟨0, _⟩ => fun e => h0 e.symm
    | ⟨1, _⟩ => fun e => h1 e.symm
    | ⟨2, _⟩ => fun e => hb e.symm)
theorem keepR2 (b : Ref sig .tc) (hb : b ≠ main_v53) : W9 m ρ c (Proc.devRef .tc b) = W8 m ρ c (Proc.devRef .tc b) := by
  by_cases h0 : b = main_v52
  · subst h0; exact (W9_arr m ρ c 0).trans (((dat2 (V8 m ρ) c).arrAt_in 0 rfl _).trans (A_eq2 (V8 m ρ) c 0))
  by_cases h1 : b = main_arg4
  · subst h1; exact (W9_arr m ρ c 1).trans (((dat2 (V8 m ρ) c).arrAt_in 1 rfl _).trans (A_eq2 (V8 m ρ) c 1))
  exact W9_of_ne m ρ c b (fun w => match w with
    | ⟨0, _⟩ => fun e => h0 e.symm
    | ⟨1, _⟩ => fun e => h1 e.symm
    | ⟨2, _⟩ => fun e => hb e.symm)
theorem keepR3 (b : Ref sig .tc) (hb : b ≠ main_v61) : W11 m ρ c (Proc.devRef .tc b) = W10 m ρ c (Proc.devRef .tc b) := by
  by_cases h0 : b = main_v60
  · subst h0; exact (W11_arr m ρ c 0).trans (((dat3 (V10 m ρ) c).arrAt_in 0 rfl _).trans (A_eq3 (V10 m ρ) c 0))
  by_cases h1 : b = main_v36
  · subst h1; exact (W11_arr m ρ c 1).trans (((dat3 (V10 m ρ) c).arrAt_in 1 rfl _).trans (A_eq3 (V10 m ρ) c 1))
  exact W11_of_ne m ρ c b (fun w => match w with
    | ⟨0, _⟩ => fun e => h0 e.symm
    | ⟨1, _⟩ => fun e => h1 e.symm
    | ⟨2, _⟩ => fun e => hb e.symm)
theorem keepR4 (b : Ref sig .tc) (hb : b ≠ main_v69) : W14 m ρ c (Proc.devRef .tc b) = W13 m ρ c (Proc.devRef .tc b) := by
  by_cases h0 : b = main_v68
  · subst h0; exact (W14_arr m ρ c 0).trans (((dat4 (V13 m ρ) c).arrAt_in 0 rfl _).trans (A_eq4 (V13 m ρ) c 0))
  by_cases h1 : b = main_arg6
  · subst h1; exact (W14_arr m ρ c 1).trans (((dat4 (V13 m ρ) c).arrAt_in 1 rfl _).trans (A_eq4 (V13 m ρ) c 1))
  exact W14_of_ne m ρ c b (fun w => match w with
    | ⟨0, _⟩ => fun e => h0 e.symm
    | ⟨1, _⟩ => fun e => h1 e.symm
    | ⟨2, _⟩ => fun e => hb e.symm)
theorem keepR5 (b : Ref sig .tc) (hb : b ≠ main_v77) : W16 m ρ c (Proc.devRef .tc b) = W15 m ρ c (Proc.devRef .tc b) := by
  by_cases h0 : b = main_v76
  · subst h0; exact (W16_arr m ρ c 0).trans (((dat5 (V15 m ρ) c).arrAt_in 0 rfl _).trans (A_eq5 (V15 m ρ) c 0))
  by_cases h1 : b = main_v36
  · subst h1; exact (W16_arr m ρ c 1).trans (((dat5 (V15 m ρ) c).arrAt_in 1 rfl _).trans (A_eq5 (V15 m ρ) c 1))
  exact W16_of_ne m ρ c b (fun w => match w with
    | ⟨0, _⟩ => fun e => h0 e.symm
    | ⟨1, _⟩ => fun e => h1 e.symm
    | ⟨2, _⟩ => fun e => hb e.symm)

/-! ## A buffer nothing after the first region's entry writes, at every later boundary -/

/-- No stretch after the first region's entry writes `b`, and `b` is no region's output array. -/
structure Stable (b : Ref sig .tc) : Prop where
  r0 : b ≠ main_v37
  h1 : b ∉ wr1
  r1 : b ≠ main_v45
  h2 : b ∉ wr2
  r2 : b ≠ main_v53
  h3 : b ∉ wr3
  r3 : b ≠ main_v61
  h4 : b ∉ wr4
  r4 : b ≠ main_v69
  h5 : b ∉ wr5
  r5 : b ≠ main_v77

variable {b : Ref sig .tc} (hs : Stable b)
include hs
theorem at4 : W4 m ρ c (Proc.devRef .tc b) = W3 m ρ c (Proc.devRef .tc b) := keepR0 m ρ c b hs.r0
theorem at5 : W5 m ρ c (Proc.devRef .tc b) = W3 m ρ c (Proc.devRef .tc b) := (keepH1 m ρ c b hs.h1).trans (at4 m ρ c hs)
theorem at6 : W6 m ρ c (Proc.devRef .tc b) = W3 m ρ c (Proc.devRef .tc b) := (keepR1 m ρ c b hs.r1).trans (at5 m ρ c hs)
theorem at8 : W8 m ρ c (Proc.devRef .tc b) = W3 m ρ c (Proc.devRef .tc b) := (keepH2 m ρ c b hs.h2).trans (at6 m ρ c hs)
theorem at9 : W9 m ρ c (Proc.devRef .tc b) = W3 m ρ c (Proc.devRef .tc b) := (keepR2 m ρ c b hs.r2).trans (at8 m ρ c hs)
theorem at10 : W10 m ρ c (Proc.devRef .tc b) = W3 m ρ c (Proc.devRef .tc b) := (keepH3 m ρ c b hs.h3).trans (at9 m ρ c hs)
theorem at11 : W11 m ρ c (Proc.devRef .tc b) = W3 m ρ c (Proc.devRef .tc b) := (keepR3 m ρ c b hs.r3).trans (at10 m ρ c hs)
theorem at13 : W13 m ρ c (Proc.devRef .tc b) = W3 m ρ c (Proc.devRef .tc b) := (keepH4 m ρ c b hs.h4).trans (at11 m ρ c hs)
theorem at14 : W14 m ρ c (Proc.devRef .tc b) = W3 m ρ c (Proc.devRef .tc b) := (keepR4 m ρ c b hs.r4).trans (at13 m ρ c hs)
theorem at15 : W15 m ρ c (Proc.devRef .tc b) = W3 m ρ c (Proc.devRef .tc b) := (keepH5 m ρ c b hs.h5).trans (at14 m ρ c hs)
theorem at16 : W16 m ρ c (Proc.devRef .tc b) = W3 m ρ c (Proc.devRef .tc b) := (keepR5 m ρ c b hs.r5).trans (at15 m ρ c hs)
omit hs

theorem stable_v31 : Stable main_v31 := by constructor <;> decide
theorem stable_v33 : Stable main_v33 := by constructor <;> decide
theorem stable_v36 : Stable main_v36 := by constructor <;> decide
theorem stable_arg3 : Stable main_arg3 := by constructor <;> decide
theorem stable_arg4 : Stable main_arg4 := by constructor <;> decide
theorem stable_arg5 : Stable main_arg5 := by constructor <;> decide
theorem stable_arg6 : Stable main_arg6 := by constructor <;> decide
theorem stable_arg7 : Stable main_arg7 := by constructor <;> decide

end Carry

end Cert.KernelIdeal.Fold

end
-- ==== Proof.FoldVal.lean ====
/-
  The idealized kernel's result array as ONE composed term of the argument arrays and of the three padded edge
  arrays the first host stretches leave (sources, destinations, weights as a column): the six host readings, one per
  stretch between regions, chained with the regions' values.
-/
import proofs.«175999_j15590731285080_1_alg».proof.Proof.Fold

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo
open Idealize.ShloMosaic.Pipeline (Dat Cfg Window)

section Reads

variable {F : FTy → Type} [FloatOps F]

/-! ## A layer's host operations, as functions -/

/-- The padded source list with each negative index moved up by the number of nodes. -/
def wrapP (s : IVec S1703936 32) : IVec S1703936 32 :=
  select (cmpi .slt s (broadcastInDim S1703936 ![] bcast_S_S1703936 (constantI S_ 32 0#32)))
    (addi s (broadcastInDim S1703936 ![] bcast_S_S1703936 (constantI S_ 32 100000#32))) s

/-- Rows of a 128-column node table gathered at the padded source list. -/
def gath128 (T : FVec F S100000x128 .f32) (s : IVec S1703936 32) : FVec F S1703936x128 .f32 :=
  Host.gather gather_S100000x128_S1703936x1_S1703936x128_1_0_n_n_0_1_1128 T
    (broadcastInDim S1703936x1 ![0] bcast_S1703936_S1703936x1_0 (wrapP s))
/-- Rows of a 40-column node table gathered at the padded source list. -/
def gath40 (T : FVec F S100000x40 .f32) (s : IVec S1703936 32) : FVec F S1703936x40 .f32 :=
  Host.gather gather_S100000x40_S1703936x1_S1703936x40_1_0_n_n_0_1_140 T
    (broadcastInDim S1703936x1 ![0] bcast_S1703936_S1703936x1_0 (wrapP s))
/-- Messages summed into their destination rows of a zero table, plus the bias on every row (128 columns). -/
def scat128 (d : IVec S1703936 32) (u : FVec F S1703936x128 .f32) (b : FVec F S128 .f32) : FVec F S100000x128 .f32 :=
  addf (Host.scatterAdd scatter_S100000x128_S1703936x1_S1703936x128_1_0_0_1
      (broadcastInDim S100000x128 ![] bcast_S_S100000x128 (constant S_ .f32 0x00000000#32))
      (broadcastInDim S1703936x1 ![0] bcast_S1703936_S1703936x1_0 d) u)
    (broadcastInDim S100000x128 ![0, 1] bcast_S1x128_S100000x128_0_1 (broadcastInDim S1x128 ![1] bcast_S128_S1x128_1 b))
/-- The same with 40 columns. -/
def scat40 (d : IVec S1703936 32) (u : FVec F S1703936x40 .f32) (b : FVec F S40 .f32) : FVec F S100000x40 .f32 :=
  addf (Host.scatterAdd scatter_S100000x40_S1703936x1_S1703936x40_1_0_0_1
      (broadcastInDim S100000x40 ![] bcast_S_S100000x40 (constant S_ .f32 0x00000000#32))
      (broadcastInDim S1703936x1 ![0] bcast_S1703936_S1703936x1_0 d) u)
    (broadcastInDim S100000x40 ![0, 1] bcast_S1x40_S100000x40_0_1 (broadcastInDim S1x40 ![1] bcast_S40_S1x40_1 b))
/-- The maximum against zero, entry by entry. -/
def relu128 (x : FVec F S100000x128 .f32) : FVec F S100000x128 .f32 :=
  maximumf x (broadcastInDim S100000x128 ![] bcast_S_S100000x128 (constant S_ .f32 0x00000000#32))

variable (m : (ℓ : Loc nD τ sig) → Buf (Elt F) ℓ) (ρ : Dev nD → PrngReg) (c : Dev nD)

/-! ## Each stretch between regions, read: its last result from the contents at its start -/

theorem read1 : W5 m ρ c (Proc.devRef .tc main_v44)
    = gath128 (W4 m ρ c (Proc.devRef .tc main_v37)) (W4 m ρ c (Proc.devRef .tc main_v31)) := by
  show StableHlo.after hostOps1 (W4 m ρ c) (Proc.devRef .tc main_v44) = _
  unfold gath128 wrapP
  after_results
theorem read2 : W8 m ρ c (Proc.devRef .tc main_v52)
    = relu128 (scat128 (W6 m ρ c (Proc.devRef .tc main_v33)) (W6 m ρ c (Proc.devRef .tc main_v45)) (W6 m ρ c (Proc.devRef .tc main_arg3))) := by
  show StableHlo.after hostOps2_1 (StableHlo.after hostOps2 (W6 m ρ c)) (Proc.devRef .tc main_v52) = _
  unfold relu128 scat128
  after_results
  simp only [TRef.ofBuf, TRef.toBuf, cast_eq]
theorem read3 : W10 m ρ c (Proc.devRef .tc main_v60)
    = gath128 (W9 m ρ c (Proc.devRef .tc main_v53)) (W9 m ρ c (Proc.devRef .tc main_v31)) := by
  show StableHlo.after hostOps3 (W9 m ρ c) (Proc.devRef .tc main_v60) = _
  unfold gath128 wrapP
  after_results
theorem read4 : W13 m ρ c (Proc.devRef .tc main_v68)
    = relu128 (scat128 (W11 m ρ c (Proc.devRef .tc main_v33)) (W11 m ρ c (Proc.devRef .tc main_v61)) (W11 m ρ c (Proc.devRef .tc main_arg5))) := by
  show StableHlo.after hostOps4_1 (StableHlo.after hostOps4 (W11 m ρ c)) (Proc.devRef .tc main_v68) = _
  unfold relu128 scat128
  after_results
  simp only [TRef.ofBuf, TRef.toBuf, cast_eq]
theorem read5 : W15 m ρ c (Proc.devRef .tc main_v76)
    = gath40 (W14 m ρ c (Proc.devRef .tc main_v69)) (W14 m ρ c (Proc.devRef .tc main_v31)) := by
  show StableHlo.after hostOps5 (W14 m ρ c) (Proc.devRef .tc main_v76) = _
  unfold gath40 wrapP
  after_results
theorem read6 : W17 m ρ c (Proc.devRef .tc main_v83)
    = scat40 (W16 m ρ c (Proc.devRef .tc main_v33)) (W16 m ρ c (Proc.devRef .tc main_v77)) (W16 m ρ c (Proc.devRef .tc main_arg7)) := by
  show StableHlo.after hostOps6 (W16 m ρ c) (Proc.devRef .tc main_v83) = _
  unfold scat40
  after_results

end Reads

section Composite

open Cert.GcnVals

variable (m : (ℓ : Loc nD τ sig) → Buf (Elt Ideal) ℓ) (ρ : Dev nD → PrngReg) (c : Dev nD)

/-- The six regions' values: each output array after its region is the plain product of its two input arrays as the
    region found them (the three products), or the rows of its first scaled by the column its second is (the three
    scalings). -/
structure RegFacts : Prop where
  r0 : ∀ (V : (c : Dev nD) → (b : Ref sig .tc) → Buf (Elt Ideal) ((c : Thread nD τ).loc b)) (c : Dev nD),
    (dat0 (F := Ideal) V c).arrAt 2 cfg0.N = mm (M := 100000) (K := 128) (N := 128) (V c main_arg0) (V c main_arg2)
  r1 : ∀ (V : (c : Dev nD) → (b : Ref sig .tc) → Buf (Elt Ideal) ((c : Thread nD τ).loc b)) (c : Dev nD),
    (dat1 (F := Ideal) V c).arrAt 2 cfg1.N = scaleRows (R := 1703936) (C := 128) (V c main_v44) (V c main_v36)
  r2 : ∀ (V : (c : Dev nD) → (b : Ref sig .tc) → Buf (Elt Ideal) ((c : Thread nD τ).loc b)) (c : Dev nD),
    (dat2 (F := Ideal) V c).arrAt 2 cfg2.N = mm (M := 100000) (K := 128) (N := 128) (V c main_v52) (V c main_arg4)
  r3 : ∀ (V : (c : Dev nD) → (b : Ref sig .tc) → Buf (Elt Ideal) ((c : Thread nD τ).loc b)) (c : Dev nD),
    (dat3 (F := Ideal) V c).arrAt 2 cfg3.N = scaleRows (R := 1703936) (C := 128) (V c main_v60) (V c main_v36)
  r4 : ∀ (V : (c : Dev nD) → (b : Ref sig .tc) → Buf (Elt Ideal) ((c : Thread nD τ).loc b)) (c : Dev nD),
    (dat4 (F := Ideal) V c).arrAt 2 cfg4.N = mm (M := 100000) (K := 128) (N := 40) (V c main_v68) (V c main_arg6)
  r5 : ∀ (V : (c : Dev nD) → (b : Ref sig .tc) → Buf (Elt Ideal) ((c : Thread nD τ).loc b)) (c : Dev nD),
    (dat5 (F := Ideal) V c).arrAt 2 cfg5.N = scaleRows (R := 1703936) (C := 40) (V c main_v76) (V c main_v36)

/-! ## The three padded edge arrays, as the first region finds them -/

/-- The padded source list. -/
abbrev srcP : IVec S1703936 32 := W3 m ρ c (Proc.devRef .tc main_v31)
/-- The padded destination list. -/
abbrev dstP : IVec S1703936 32 := W3 m ρ c (Proc.devRef .tc main_v33)
/-- The padded weights, as a column. -/
abbrev nrmP : FVec Ideal S1703936x1 .f32 := W3 m ρ c (Proc.devRef .tc main_v36)

/-- One layer with 128 output columns: product, gather, scaling, scatter-add, bias. -/
def kLayer128 (h : FVec Ideal S100000x128 .f32) (w : FVec Ideal S128x128 .f32) (b : FVec Ideal S128 .f32) : FVec Ideal S100000x128 .f32 :=
  scat128 (F := Ideal) (dstP m ρ c) (scaleRows (R := 1703936) (C := 128) (gath128 (F := Ideal) (mm (M := 100000) (K := 128) (N := 128) h w) (srcP m ρ c)) (nrmP m ρ c)) b
/-- The last layer, with 40 output columns. -/
def kLayer40 (h : FVec Ideal S100000x128 .f32) (w : FVec Ideal S128x40 .f32) (b : FVec Ideal S40 .f32) : FVec Ideal S100000x40 .f32 :=
  scat40 (F := Ideal) (dstP m ρ c) (scaleRows (R := 1703936) (C := 40) (gath40 (F := Ideal) (mm (M := 100000) (K := 128) (N := 40) h w) (srcP m ρ c)) (nrmP m ρ c)) b

/-- The first layer's result after the maximum against zero. -/
def kA1 : FVec Ideal S100000x128 .f32 :=
  relu128 (F := Ideal) (kLayer128 m ρ c (m ((c : Thread nD τ).loc main_arg0)) (m ((c : Thread nD τ).loc main_arg2)) (m ((c : Thread nD τ).loc main_arg3)))
/-- The second layer's result after the maximum against zero. -/
def kA2 : FVec Ideal S100000x128 .f32 :=
  relu128 (F := Ideal) (kLayer128 m ρ c (kA1 m ρ c) (m ((c : Thread nD τ).loc main_arg4)) (m ((c : Thread nD τ).loc main_arg5)))
/-- The kernel's result: the third layer of the second's result. -/
def kOut : FVec Ideal S100000x40 .f32 :=
  kLayer40 m ρ c (kA2 m ρ c) (m ((c : Thread nD τ).loc main_arg6)) (m ((c : Thread nD τ).loc main_arg7))

variable (R : RegFacts)
include R

/-! ## The chain, boundary by boundary -/

theorem h37 : W4 m ρ c (Proc.devRef .tc main_v37)
    = mm (M := 100000) (K := 128) (N := 128) (m ((c : Thread nD τ).loc main_arg0)) (m ((c : Thread nD τ).loc main_arg2)) := by
  refine (W4_arr m ρ c 2).trans ((R.r0 (V3 m ρ) c).trans ?_)
  rw [show V3 m ρ c main_arg0 = m ((c : Thread nD τ).loc main_arg0) from keepH0 m ρ c main_arg0 (by decide),
    show V3 m ρ c main_arg2 = m ((c : Thread nD τ).loc main_arg2) from keepH0 m ρ c main_arg2 (by decide)]

theorem h44 : W5 m ρ c (Proc.devRef .tc main_v44)
    = gath128 (F := Ideal) (mm (M := 100000) (K := 128) (N := 128) (m ((c : Thread nD τ).loc main_arg0)) (m ((c : Thread nD τ).loc main_arg2))) (srcP m ρ c) := by
  rw [read1, h37 m ρ c R, at4 m ρ c stable_v31]

theorem h45 : W6 m ρ c (Proc.devRef .tc main_v45)
    = scaleRows (R := 1703936) (C := 128) (gath128 (F := Ideal) (mm (M := 100000) (K := 128) (N := 128) (m ((c : Thread nD τ).loc main_arg0)) (m ((c : Thread nD τ).loc main_arg2))) (srcP m ρ c)) (nrmP m ρ c) := by
  refine (W6_arr m ρ c 2).trans ((R.r1 (V5 m ρ) c).trans ?_)
  rw [show V5 m ρ c main_v44 = _ from h44 m ρ c R, show V5 m ρ c main_v36 = nrmP m ρ c from at5 m ρ c stable_v36]

theorem h52 : W8 m ρ c (Proc.devRef .tc main_v52) = kA1 m ρ c := by
  rw [read2, h45 m ρ c R, at6 m ρ c stable_v33, at6 m ρ c stable_arg3, keepH0 m ρ c main_arg3 (by decide)]
  rfl

theorem h53 : W9 m ρ c (Proc.devRef .tc main_v53)
    = mm (M := 100000) (K := 128) (N := 128) (kA1 m ρ c) (m ((c : Thread nD τ).loc main_arg4)) := by
  refine (W9_arr m ρ c 2).trans ((R.r2 (V8 m ρ) c).trans ?_)
  rw [show V8 m ρ c main_v52 = kA1 m ρ c from h52 m ρ c R,
    show V8 m ρ c main_arg4 = m ((c : Thread nD τ).loc main_arg4) from (at8 m ρ c stable_arg4).trans (keepH0 m ρ c main_arg4 (by decide))]

theorem h60 : W10 m ρ c (Proc.devRef .tc main_v60)
    = gath128 (F := Ideal) (mm (M := 100000) (K := 128) (N := 128) (kA1 m ρ c) (m ((c : Thread nD τ).loc main_arg4))) (srcP m ρ c) := by
  rw [read3, h53 m ρ c R, at9 m ρ c stable_v31]

theorem h61 : W11 m ρ c (Proc.devRef .tc main_v61)
    = scaleRows (R := 1703936) (C := 128) (gath128 (F := Ideal) (mm (M := 100000) (K := 128) (N := 128) (kA1 m ρ c) (m ((c : Thread nD τ).loc main_arg4))) (srcP m ρ c)) (nrmP m ρ c) := by
  refine (W11_arr m ρ c 2).trans ((R.r3 (V10 m ρ) c).trans ?_)
  rw [show V10 m ρ c main_v60 = _ from h60 m ρ c R, show V10 m ρ c main_v36 = nrmP m ρ c from at10 m ρ c stable_v36]

theorem h68 : W13 m ρ c (Proc.devRef .tc main_v68) = kA2 m ρ c := by
  rw [read4, h61 m ρ c R, at11 m ρ c stable_v33, at11 m ρ c stable_arg5, keepH0 m ρ c main_arg5 (by decide)]
  rfl

theorem h69 : W14 m ρ c (Proc.devRef .tc main_v69)
    = mm (M := 100000) (K := 128) (N := 40) (kA2 m ρ c) (m ((c : Thread nD τ).loc main_arg6)) := by
  refine (W14_arr m ρ c 2).trans ((R.r4 (V13 m ρ) c).trans ?_)
  rw [show V13 m ρ c main_v68 = kA2 m ρ c from h68 m ρ c R,
    show V13 m ρ c main_arg6 = m ((c : Thread nD τ).loc main_arg6) from (at13 m ρ c stable_arg6).trans (keepH0 m ρ c main_arg6 (by decide))]

theorem h76 : W15 m ρ c (Proc.devRef .tc main_v76)
    = gath40 (F := Ideal) (mm (M := 100000) (K := 128) (N := 40) (kA2 m ρ c) (m ((c : Thread nD τ).loc main_arg6))) (srcP m ρ c) := by
  rw [read5, h69 m ρ c R, at14 m ρ c stable_v31]

theorem h77 : W16 m ρ c (Proc.devRef .tc main_v77)
    = scaleRows (R := 1703936) (C := 40) (gath40 (F := Ideal) (mm (M := 100000) (K := 128) (N := 40) (kA2 m ρ c) (m ((c : Thread nD τ).loc main_arg6))) (srcP m ρ c)) (nrmP m ρ c) := by
  refine (W16_arr m ρ c 2).trans ((R.r5 (V15 m ρ) c).trans ?_)
  rw [show V15 m ρ c main_v76 = _ from h76 m ρ c R, show V15 m ρ c main_v36 = nrmP m ρ c from at15 m ρ c stable_v36]

/-- The result array after the last host stretch is the three-layer term. -/
theorem h83 : W17 m ρ c (Proc.devRef .tc main_v83) = kOut m ρ c := by
  rw [read6, h77 m ρ c R, at16 m ρ c stable_v33, at16 m ρ c stable_arg7, keepH0 m ρ c main_arg7 (by decide)]
  rfl

end Composite

end Cert.KernelIdeal.Fold

end
-- ==== Proof.Edges.lean ====
/-
  The three padded edge arrays the first region finds, in terms of the reference's own unpadded lists: the padded
  source list is the reference's source list followed by 3936 zeros, the padded destination list likewise, and the
  padded weight column is the column of the reference's weights followed by 3936 zeros. Both programs compute the
  unpadded lists by the same host operations of the edge-index argument.
-/
import proofs.«175999_j15590731285080_1_alg».proof.Proof.Fold
import proofs.«175999_j15590731285080_1_alg».proof.Proof.RefRead

set_option maxRecDepth 16384

noncomputable section

namespace Cert.KernelIdeal.Fold

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg) (c : Dev nD)

/-! ## The unpadded lists and the degree norm, after the first two stretches

Each is the reference's own stage of the edge-index argument: the same operations in the same order. -/

private theorem W2_v3 : W2 m ρ c (Proc.devRef .tc main_v3)
    = Cert.ReferenceIdeal.ReadP.val_main_v3 (F := F) (m ((c : Thread nD τ).loc main_arg1)) := by
  show StableHlo.after hostOps0_1 (StableHlo.after hostOps0 (W0 m ρ c)) (Proc.devRef .tc main_v3) = _
  after_results
  rfl

private theorem W2_v6 : W2 m ρ c (Proc.devRef .tc main_v6)
    = Cert.ReferenceIdeal.ReadP.val_main_v6 (F := F) (m ((c : Thread nD τ).loc main_arg1)) := by
  show StableHlo.after hostOps0_1 (StableHlo.after hostOps0 (W0 m ρ c)) (Proc.devRef .tc main_v6) = _
  after_results
  rfl

private theorem W2_v14 : W2 m ρ c (Proc.devRef .tc main_v14)
    = Cert.ReferenceIdeal.ReadP.val_main_v14 (F := F) (m ((c : Thread nD τ).loc main_arg1)) := by
  show StableHlo.after hostOps0_1 (StableHlo.after hostOps0 (W0 m ρ c)) (Proc.devRef .tc main_v14) = _
  after_results_simp
  rfl

/-! ## The third stretch over any contents -/

/-- The weights, from contents whose two lists and degree norm are the reference's. -/
private theorem stretch3_v29 (V : Valuation τ sig (Elt F)) (x1 : (⟨Cert.ReferenceIdeal.S2x1600000, .i32⟩ : BufTy).Contents (Elt F))
    (h3 : V (Proc.devRef .tc main_v3) = Cert.ReferenceIdeal.ReadP.val_main_v3 (F := F) x1)
    (h6 : V (Proc.devRef .tc main_v6) = Cert.ReferenceIdeal.ReadP.val_main_v6 (F := F) x1)
    (h14 : V (Proc.devRef .tc main_v14) = Cert.ReferenceIdeal.ReadP.val_main_v14 (F := F) x1) :
    StableHlo.after hostOps0_2 V (Proc.devRef .tc main_v29) = Cert.ReferenceIdeal.ReadP.val_main_v29 (F := F) x1 := by
  after_results_simp
  rw [h3, h6, h14]
  rfl

/-- The padded weight column is the column of the weights followed by zeros. -/
private theorem stretch3_v36 (V : Valuation τ sig (Elt F)) :
    StableHlo.after hostOps0_2 V (Proc.devRef .tc main_v36)
      = broadcastInDim S1703936x1 ![0] bcast_S1703936_S1703936x1_0
          (concatenate S1703936 0 [⟨S1700000, (StableHlo.after hostOps0_2 V (Proc.devRef .tc main_v29) : (⟨S1700000, .f32⟩ : BufTy).Contents (Elt F))⟩,
            ⟨S3936, broadcastInDim S3936 ![] bcast_S_S3936 (constant (F := F) S_ .f32 0x00000000#32)⟩] concatenates_S1700000_S3936_S1703936_d0) := by
  after_results_simp
  rfl

/-- The padded source list is the source list followed by zeros. -/
private theorem stretch3_v31 (V : Valuation τ sig (Elt F)) :
    StableHlo.after hostOps0_2 V (Proc.devRef .tc main_v31)
      = concatenate S1703936 0 [⟨S1700000, (V (Proc.devRef .tc main_v3) : (⟨S1700000, .i32⟩ : BufTy).Contents (Elt F))⟩,
          ⟨S3936, broadcastInDim S3936 ![] bcast_S_S3936 (constantI S_ 32 0#32)⟩] concatenates_S1700000_S3936_S1703936_d0 := by
  after_results_simp
  rfl

/-- The padded destination list is the destination list followed by zeros. -/
private theorem stretch3_v33 (V : Valuation τ sig (Elt F)) :
    StableHlo.after hostOps0_2 V (Proc.devRef .tc main_v33)
      = concatenate S1703936 0 [⟨S1700000, (V (Proc.devRef .tc main_v6) : (⟨S1700000, .i32⟩ : BufTy).Contents (Elt F))⟩,
          ⟨S3936, broadcastInDim S3936 ![] bcast_S_S3936 (constantI S_ 32 0#32)⟩] concatenates_S1700000_S3936_S1703936_d0 := by
  after_results_simp
  rfl

/-! ## The three padded arrays the first region finds -/

theorem srcP_eq : W3 m ρ c (Proc.devRef .tc main_v31)
    = concatenate S1703936 0 [⟨S1700000, Cert.ReferenceIdeal.ReadP.val_main_v3 (F := F) (m ((c : Thread nD τ).loc main_arg1))⟩,
        ⟨S3936, broadcastInDim S3936 ![] bcast_S_S3936 (constantI S_ 32 0#32)⟩] concatenates_S1700000_S3936_S1703936_d0 := by
  show StableHlo.after hostOps0_2 (W2 m ρ c) (Proc.devRef .tc main_v31) = _
  rw [stretch3_v31, W2_v3]

theorem dstP_eq : W3 m ρ c (Proc.devRef .tc main_v33)
    = concatenate S1703936 0 [⟨S1700000, Cert.ReferenceIdeal.ReadP.val_main_v6 (F := F) (m ((c : Thread nD τ).loc main_arg1))⟩,
        ⟨S3936, broadcastInDim S3936 ![] bcast_S_S3936 (constantI S_ 32 0#32)⟩] concatenates_S1700000_S3936_S1703936_d0 := by
  show StableHlo.after hostOps0_2 (W2 m ρ c) (Proc.devRef .tc main_v33) = _
  rw [stretch3_v33, W2_v6]

theorem nrmP_eq : W3 m ρ c (Proc.devRef .tc main_v36)
    = broadcastInDim S1703936x1 ![0] bcast_S1703936_S1703936x1_0
        (concatenate S1703936 0 [⟨S1700000, Cert.ReferenceIdeal.ReadP.val_main_v29 (F := F) (m ((c : Thread nD τ).loc main_arg1))⟩,
          ⟨S3936, broadcastInDim S3936 ![] bcast_S_S3936 (constant (F := F) S_ .f32 0x00000000#32)⟩] concatenates_S1700000_S3936_S1703936_d0) := by
  show StableHlo.after hostOps0_2 (W2 m ρ c) (Proc.devRef .tc main_v36) = _
  rw [stretch3_v36, stretch3_v29 (W2 m ρ c) _ (W2_v3 m ρ c) (W2_v6 m ρ c) (W2_v14 m ρ c)]

end Cert.KernelIdeal.Fold

end
-- ==== Proof.LibPadScatter.lean ====
/-
  A row scatter-add does not see update rows that are zero: appending rows whose updates are all zero (whatever their
  scatter indices) to the updates of a row scatter-add leaves every entry of the accumulated table as it was.
  Also the form this takes for messages gathered from a node table and scaled by a per-row weight: the appended rows
  may gather any row of the table, as long as their weight is zero.
-/
import Idealize.ShloMosaic.PureOps.Ideal
import Idealize.ShloMosaic.PureOps.Ideal.Laws
import Idealize.ShloMosaic.Lib.ValueIdx
import proofs.«175999_j15590731285080_1_alg».proof.Proof.LibRowDims

noncomputable section

open scoped BigOperators

namespace Idealize.ShloMosaic.RowDims

open Idealize.ShloMosaic Idealize.ShloMosaic.ValueIdx

/-- A sum over `Fin R'` whose terms vanish from position `R` on is the sum over `Fin R`. -/
theorem sum_castLE_pad {R R' : Nat} (h : R ≤ R') (f : Fin R' → EReal) (hz : ∀ r' : Fin R', R ≤ r'.val → f r' = 0) :
    ∑ r' : Fin R', f r' = ∑ r : Fin R, f (Fin.castLE h r) := by
  -- the shorter sum, carried into the longer by the inclusion, misses only positions from `R` on
  symm
  refine Finset.sum_of_injOn (Fin.castLE h) (Fin.castLE_injective h).injOn
    (fun _ _ => Finset.mem_coe.2 (Finset.mem_univ _)) ?_ (fun _ _ => rfl)
  intro r' _ hr'
  refine hz r' ?_
  -- a position below `R` is the image of itself
  by_contra hlt
  exact hr' ⟨⟨r'.val, by omega⟩, Finset.mem_coe.2 (Finset.mem_univ _), Fin.ext rfl⟩

/-- Appending update rows that are zero to a row scatter-add changes nothing. -/
theorem rowScatterAdd_pad {N C R R' w : Nat} (h : R ≤ R')
    (wf : ScatterDims.WF ⟨2, ![N, C]⟩ ⟨2, ![R, 1]⟩ ⟨2, ![R, C]⟩ [1] [0] [0] 1)
    (wf' : ScatterDims.WF ⟨2, ![N, C]⟩ ⟨2, ![R', 1]⟩ ⟨2, ![R', C]⟩ [1] [0] [0] 1)
    (x : (⟨2, ![N, C]⟩ : Shape).Idx → EReal)
    (idx : IVec ⟨2, ![R, 1]⟩ w) (idx' : IVec ⟨2, ![R', 1]⟩ w)
    (upd : (⟨2, ![R, C]⟩ : Shape).Idx → EReal) (upd' : (⟨2, ![R', C]⟩ : Shape).Idx → EReal)
    (hidx : ∀ r : Fin R, idx' (ix2 (Fin.castLE h r) 0) = idx (ix2 r 0))
    (hupd : ∀ (r : Fin R) (b : Fin C), upd' (ix2 (Fin.castLE h r) b) = upd (ix2 r b))
    (hpad : ∀ (r' : Fin R') (b : Fin C), R ≤ r'.val → upd' (ix2 r' b) = 0) :
    Ideal.hostScatterAdd (rowScatter N C R' wf') x idx' upd' = Ideal.hostScatterAdd (rowScatter N C R wf) x idx upd := by
  funext i
  obtain ⟨a, b, rfl⟩ : ∃ (a : Fin N) (b : Fin C), i = ix2 a b := ⟨i 0, i 1, eq_ix2 i⟩
  rw [rowScatterAdd_apply, rowScatterAdd_apply]
  congr 1
  -- the appended rows contribute `0` whether or not their index is `a`
  rw [sum_castLE_pad h]
  · refine Finset.sum_congr rfl fun r _ => ?_
    rw [hidx r, hupd r b]
  · intro r' hr'
    rw [hpad r' b hr']
    exact ite_self 0

/-- Messages gathered from a node table `T` at the rows `fix`, each scaled by its row's weight, and summed into the rows
    `dst`: appending rows of weight zero (gathering any row, summed into any row) changes nothing. The weights of the
    long form are an `[R', 1]` column `n2'`; those of the short form are already spread over the columns (`nb`). -/
theorem gatherScaleScatter_pad {N C R R' w : Nat} (hN : 0 < N) (h : R ≤ R')
    (wfg : GatherDims.WF ⟨2, ![N, C]⟩ ⟨2, ![R, 1]⟩ ⟨2, ![R, C]⟩ [1] [0] [] [0] [] 1 ![1, C])
    (wfg' : GatherDims.WF ⟨2, ![N, C]⟩ ⟨2, ![R', 1]⟩ ⟨2, ![R', C]⟩ [1] [0] [] [0] [] 1 ![1, C])
    (wfs : ScatterDims.WF ⟨2, ![N, C]⟩ ⟨2, ![R, 1]⟩ ⟨2, ![R, C]⟩ [1] [0] [0] 1)
    (wfs' : ScatterDims.WF ⟨2, ![N, C]⟩ ⟨2, ![R', 1]⟩ ⟨2, ![R', C]⟩ [1] [0] [0] 1)
    (T z : (⟨2, ![N, C]⟩ : Shape).Idx → EReal)
    (fix dst : IVec ⟨2, ![R, 1]⟩ w) (fix' dst' : IVec ⟨2, ![R', 1]⟩ w)
    (nb : (⟨2, ![R, C]⟩ : Shape).Idx → EReal) (n2' : (⟨2, ![R', 1]⟩ : Shape).Idx → EReal)
    (hfix : ∀ r : Fin R, fix' (ix2 (Fin.castLE h r) 0) = fix (ix2 r 0))
    (hdst : ∀ r : Fin R, dst' (ix2 (Fin.castLE h r) 0) = dst (ix2 r 0))
    (hn : ∀ (r : Fin R) (b : Fin C), n2' (ix2 (Fin.castLE h r) 0) = nb (ix2 r b))
    (hpad : ∀ r' : Fin R', R ≤ r'.val → n2' (ix2 r' 0) = 0) :
    Ideal.hostScatterAdd (rowScatter N C R' wfs') z dst'
        (fun i => Host.gather (rowGather N C R' wfg') T fix' i * n2' (ix2 (i 0) 0))
      = Ideal.hostScatterAdd (rowScatter N C R wfs) z dst
        (fun i => Host.gather (rowGather N C R wfg) T fix i * nb i) := by
  refine rowScatterAdd_pad h wfs wfs' z dst dst' _ _ hdst ?_ ?_
  · -- a kept row gathers the same table row and carries the same weight
    intro r b
    show Host.gather (rowGather N C R' wfg') T fix' (ix2 (Fin.castLE h r) b) * n2' (ix2 (Fin.castLE h r) 0)
      = Host.gather (rowGather N C R wfg) T fix (ix2 r b) * nb (ix2 r b)
    rw [rowGather_apply hN, rowGather_apply hN, hfix r, hn r b]
  · -- an appended row has weight zero: whatever it gathers, its message is zero
    intro r' b hr'
    show Host.gather (rowGather N C R' wfg') T fix' (ix2 r' b) * n2' (ix2 r' 0) = 0
    rw [hpad r' hr', mul_zero]

end Idealize.ShloMosaic.RowDims

end
-- ==== Proof.PadEntries.lean ====
/-
  Entries of the layout operations that pad a list of E rows to E' rows, read at a coordinate:
  a two-piece concatenation along its one axis, before and after the seam; a column made from a list;
  a column spread over the columns of a table.
-/
import Idealize.ShloMosaic.PureOps.Ideal
import Idealize.ShloMosaic.Lib.ValueIdx
import Idealize.ShloMosaic.Lib.Pipeline.Value

noncomputable section

namespace Cert.GcnVals

open Idealize.ShloMosaic Idealize.ShloMosaic.ValueIdx

variable {α : Type}

/-- A two-piece concatenation of lists reads the first piece before the seam. -/
theorem concat1_left {n₁ n₂ n : Nat} (hle : n₁ ≤ n) (x₁ : (⟨1, ![n₁]⟩ : Shape).Idx → α) (x₂ : (⟨1, ![n₂]⟩ : Shape).Idx → α)
    (h : Shape.Concatenates [⟨1, ![n₁]⟩, ⟨1, ![n₂]⟩] (⟨1, ![n]⟩ : Shape) 0) (r : Fin n₁) :
    concatenate (⟨1, ![n]⟩ : Shape) 0 [⟨⟨1, ![n₁]⟩, x₁⟩, ⟨⟨1, ![n₂]⟩, x₂⟩] h (ix1 (Fin.castLE hle r)) = x₁ (ix1 r) := by
  -- the coordinate is below the first extent: the first piece, at the same coordinate
  refine concatenate_pair_apply_left (0 : Fin 1) x₁ x₂ h (ix1 (Fin.castLE hle r)) rfl (ix1 r) ?_
  intro b
  match b with
  | ⟨0, _⟩ => rfl

/-- A two-piece concatenation of lists reads the second piece from the seam on, the first extent less. -/
theorem concat1_right {n₁ n₂ n : Nat} (x₁ : (⟨1, ![n₁]⟩ : Shape).Idx → α) (x₂ : (⟨1, ![n₂]⟩ : Shape).Idx → α)
    (h : Shape.Concatenates [⟨1, ![n₁]⟩, ⟨1, ![n₂]⟩] (⟨1, ![n]⟩ : Shape) 0) (r' : Fin n) (hr : n₁ ≤ r'.val)
    (q : Fin n₂) (hq : q.val + n₁ = r'.val) :
    concatenate (⟨1, ![n]⟩ : Shape) 0 [⟨⟨1, ![n₁]⟩, x₁⟩, ⟨⟨1, ![n₂]⟩, x₂⟩] h (ix1 r') = x₂ (ix1 q) := by
  -- the coordinate is at or past the first extent: the second piece, the first extent less
  have _ := hr
  refine concatenate_pair_apply_right (0 : Fin 1) x₁ x₂ h (ix1 r') rfl rfl (ix1 q) ?_ ?_
  · intro b hb
    match b, hb with
    | ⟨0, _⟩, hb => exact absurd rfl hb
  · exact hq

/-- A list made a column: entry (r, 0) of the column is entry r of the list (R > 1). -/
theorem bcastCol_apply {R : Nat} (hR : R ≠ 1) (dims : Fin 1 → Fin 2) (hd : dims 0 = 0)
    (h : (⟨1, ![R]⟩ : Shape).BroadcastsInDim (⟨2, ![R, 1]⟩ : Shape) dims) (x : (⟨1, ![R]⟩ : Shape).Idx → α) (r : Fin R) :
    broadcastInDim (⟨2, ![R, 1]⟩ : Shape) dims h x (ix2 r 0) = x (ix1 r) := by
  -- the list's one axis is the column's row axis, and it is not a unit axis
  refine broadcastInDim_apply dims h x (ix2 r 0) (ix1 r) ?_
  intro a
  match a with
  | ⟨0, _⟩ =>
    show r.val = if R = 1 then 0 else ((ix2 r (0 : Fin 1) : (⟨2, ![R, 1]⟩ : Shape).Idx) (dims 0)).val
    rw [if_neg hR, hd]

/-- A column spread over C columns: entry (r, b) is the column's entry (r, 0) (R > 1). -/
theorem bcastSpread_apply {R C : Nat} (hR : R ≠ 1) (dims : Fin 2 → Fin 2) (hd0 : dims 0 = 0) (hd1 : dims 1 = 1)
    (h : (⟨2, ![R, 1]⟩ : Shape).BroadcastsInDim (⟨2, ![R, C]⟩ : Shape) dims) (x : (⟨2, ![R, 1]⟩ : Shape).Idx → α)
    (r : Fin R) (b : Fin C) :
    broadcastInDim (⟨2, ![R, C]⟩ : Shape) dims h x (ix2 r b) = x (ix2 r 0) := by
  -- the row axis is kept; the column axis of the operand is a unit axis, read at `0`
  refine broadcastInDim_apply dims h x (ix2 r b) (ix2 r 0) ?_
  intro a
  match a with
  | ⟨0, _⟩ =>
    show r.val = if R = 1 then 0 else ((ix2 r b : (⟨2, ![R, C]⟩ : Shape).Idx) (dims 0)).val
    rw [if_neg hR, hd0]
  | ⟨1, _⟩ =>
    show 0 = if (1 : Nat) = 1 then 0 else ((ix2 r b : (⟨2, ![R, C]⟩ : Shape).Idx) (dims 1)).val
    rw [if_pos rfl]

end Cert.GcnVals

end
-- ==== Proof.LayerPad.lean ====
/-
  One layer's aggregation over the padded edge list is the aggregation over the edge list itself. The padded list
  appends rows whose source and destination are node 0 and whose weight is zero; each appended row gathers row 0 of
  the node table, scales it by zero and adds the resulting zeros to row 0, which changes nothing (x · 0 = 0 for every
  extended real). Source indices are read the way array indexing reads them: a negative index counted from the end.
-/
import Idealize.ShloMosaic.PureOps.Ideal
import Idealize.ShloMosaic.PureOps.Ideal.Laws
import Idealize.ShloMosaic.Lib.ValueIdx
import proofs.«175999_j15590731285080_1_alg».proof.Proof.LibRowDims
import proofs.«175999_j15590731285080_1_alg».proof.Proof.LibPadScatter
import proofs.«175999_j15590731285080_1_alg».proof.Proof.PadEntries
import proofs.«175999_j15590731285080_1_alg».proof.Proof.Vals

noncomputable section

open scoped BigOperators

namespace Cert.GcnVals

open Idealize.ShloMosaic Idealize.ShloMosaic.ValueIdx Idealize.ShloMosaic.RowDims

/-- A list of 32-bit node indices with each negative index moved up by the number of nodes. -/
def wrapIdx {n : Nat} (hb : (⟨0, ![]⟩ : Shape).BroadcastsInDim (⟨1, ![n]⟩ : Shape) ![]) (x : IVec (⟨1, ![n]⟩ : Shape) 32) :
    IVec (⟨1, ![n]⟩ : Shape) 32 :=
  select (cmpi .slt x (broadcastInDim (⟨1, ![n]⟩ : Shape) ![] hb (constantI (⟨0, ![]⟩ : Shape) 32 0#32)))
    (addi x (broadcastInDim (⟨1, ![n]⟩ : Shape) ![] hb (constantI (⟨0, ![]⟩ : Shape) 32 100000#32))) x

/-- The wrapped list at a position depends on the list's entry at that position alone. -/
private theorem wrapIdx_congr {n m : Nat} (hb : (⟨0, ![]⟩ : Shape).BroadcastsInDim (⟨1, ![n]⟩ : Shape) ![])
    (hb' : (⟨0, ![]⟩ : Shape).BroadcastsInDim (⟨1, ![m]⟩ : Shape) ![])
    (x : IVec (⟨1, ![n]⟩ : Shape) 32) (y : IVec (⟨1, ![m]⟩ : Shape) 32)
    (j : (⟨1, ![n]⟩ : Shape).Idx) (k : (⟨1, ![m]⟩ : Shape).Idx) (h : x j = y k) : wrapIdx hb x j = wrapIdx hb' y k := by
  show Scalar.select (IntOp.cmpi .slt (x j) 0#32) (IntOp.addi (x j) 100000#32) (x j)
    = Scalar.select (IntOp.cmpi .slt (y k) 0#32) (IntOp.addi (y k) 100000#32) (y k)
  rw [h]

/-- A list of zeros of the ideal reals, read anywhere, is zero. -/
private theorem zeros_apply {n : Nat} (hb : (⟨0, ![]⟩ : Shape).BroadcastsInDim (⟨1, ![n]⟩ : Shape) ![])
    (j : (⟨1, ![n]⟩ : Shape).Idx) :
    broadcastInDim (⟨1, ![n]⟩ : Shape) ![] hb (constant (F := Ideal) (⟨0, ![]⟩ : Shape) .f32 0x00000000#32) j = (0 : EReal) := by
  show Ideal.ofBits .f32 0x00000000#32 = 0
  exact Ideal.ofBits_zero_f32

/-- The aggregation of a node table `T` over the padded edge list (E' = E + P rows: sources `src`, destinations `dst` and
    weights `nrm` each followed by P zeros) equals the aggregation over the E rows. Every side condition of a layout
    operation is taken as given, whatever its proof. -/
theorem layer_pad {C E P E' : Nat} (hE : E ≤ E') (hEP : E + P = E') (hE1 : E ≠ 1) (hE'1 : E' ≠ 1)
    (wfg : GatherDims.WF ⟨2, ![100000, C]⟩ ⟨2, ![E, 1]⟩ ⟨2, ![E, C]⟩ [1] [0] [] [0] [] 1 ![1, C])
    (wfg' : GatherDims.WF ⟨2, ![100000, C]⟩ ⟨2, ![E', 1]⟩ ⟨2, ![E', C]⟩ [1] [0] [] [0] [] 1 ![1, C])
    (wfs : ScatterDims.WF ⟨2, ![100000, C]⟩ ⟨2, ![E, 1]⟩ ⟨2, ![E, C]⟩ [1] [0] [0] 1)
    (wfs' : ScatterDims.WF ⟨2, ![100000, C]⟩ ⟨2, ![E', 1]⟩ ⟨2, ![E', C]⟩ [1] [0] [0] 1)
    (hcat : Shape.Concatenates [(⟨1, ![E]⟩ : Shape), (⟨1, ![P]⟩ : Shape)] (⟨1, ![E']⟩ : Shape) 0)
    (hbE : (⟨0, ![]⟩ : Shape).BroadcastsInDim (⟨1, ![E]⟩ : Shape) ![])
    (hbE' : (⟨0, ![]⟩ : Shape).BroadcastsInDim (⟨1, ![E']⟩ : Shape) ![])
    (hbP : (⟨0, ![]⟩ : Shape).BroadcastsInDim (⟨1, ![P]⟩ : Shape) ![])
    (hcolE : (⟨1, ![E]⟩ : Shape).BroadcastsInDim (⟨2, ![E, 1]⟩ : Shape) ![0])
    (hcolE' : (⟨1, ![E']⟩ : Shape).BroadcastsInDim (⟨2, ![E', 1]⟩ : Shape) ![0])
    (hspread : (⟨2, ![E, 1]⟩ : Shape).BroadcastsInDim (⟨2, ![E, C]⟩ : Shape) ![0, 1])
    (T z : (⟨2, ![100000, C]⟩ : Shape).Idx → EReal)
    (src dst : IVec (⟨1, ![E]⟩ : Shape) 32) (nrm : (⟨1, ![E]⟩ : Shape).Idx → EReal) :
    Ideal.hostScatterAdd (rowScatter 100000 C E' wfs') z
        (broadcastInDim (⟨2, ![E', 1]⟩ : Shape) ![0] hcolE'
          (concatenate (⟨1, ![E']⟩ : Shape) 0 [⟨⟨1, ![E]⟩, dst⟩, ⟨⟨1, ![P]⟩, broadcastInDim (⟨1, ![P]⟩ : Shape) ![] hbP (constantI (⟨0, ![]⟩ : Shape) 32 0#32)⟩] hcat))
        (scaleRows
          (Host.gather (rowGather 100000 C E' wfg') T
            (broadcastInDim (⟨2, ![E', 1]⟩ : Shape) ![0] hcolE'
              (wrapIdx hbE' (concatenate (⟨1, ![E']⟩ : Shape) 0 [⟨⟨1, ![E]⟩, src⟩, ⟨⟨1, ![P]⟩, broadcastInDim (⟨1, ![P]⟩ : Shape) ![] hbP (constantI (⟨0, ![]⟩ : Shape) 32 0#32)⟩] hcat))))
          (broadcastInDim (⟨2, ![E', 1]⟩ : Shape) ![0] hcolE'
            (concatenate (⟨1, ![E']⟩ : Shape) 0 [⟨⟨1, ![E]⟩, nrm⟩, ⟨⟨1, ![P]⟩, broadcastInDim (⟨1, ![P]⟩ : Shape) ![] hbP (constant (F := Ideal) (⟨0, ![]⟩ : Shape) .f32 0x00000000#32)⟩] hcat)))
      = Ideal.hostScatterAdd (rowScatter 100000 C E wfs) z
        (broadcastInDim (⟨2, ![E, 1]⟩ : Shape) ![0] hcolE dst)
        (mulf (F := Ideal) (φ := .f32)
          (Host.gather (rowGather 100000 C E wfg) T (broadcastInDim (⟨2, ![E, 1]⟩ : Shape) ![0] hcolE (wrapIdx hbE src)))
          (broadcastInDim (⟨2, ![E, C]⟩ : Shape) ![0, 1] hspread (broadcastInDim (⟨2, ![E, 1]⟩ : Shape) ![0] hcolE nrm))) := by
  refine gatherScaleScatter_pad (N := 100000) (by decide) hE wfg wfg' wfs wfs' T z _ _ _ _ _ _ ?hfix ?hdst ?hn ?hpad
  case hfix =>
    -- a kept row's source: the same entry of the source list, wrapped the same way
    intro r
    rw [bcastCol_apply hE'1 ![0] rfl hcolE', bcastCol_apply hE1 ![0] rfl hcolE]
    exact wrapIdx_congr hbE' hbE _ _ _ _ (concat1_left hE _ _ hcat r)
  case hdst =>
    -- a kept row's destination: the same entry of the destination list
    intro r
    rw [bcastCol_apply hE'1 ![0] rfl hcolE', bcastCol_apply hE1 ![0] rfl hcolE]
    exact concat1_left hE _ _ hcat r
  case hn =>
    -- a kept row's weight: the same entry of the weight list, in every column
    intro r b
    rw [bcastCol_apply hE'1 ![0] rfl hcolE', bcastSpread_apply hE1 ![0, 1] rfl rfl hspread,
      bcastCol_apply hE1 ![0] rfl hcolE]
    exact concat1_left hE _ _ hcat r
  case hpad =>
    -- an appended row's weight is an entry of the list of zeros
    intro r' hr'
    rw [bcastCol_apply hE'1 ![0] rfl hcolE',
      concat1_right _ _ hcat r' hr' ⟨r'.val - E, by have := r'.isLt; omega⟩ (by show r'.val - E + E = r'.val; omega)]
    exact zeros_apply hbP _

end Cert.GcnVals

end
-- ==== Proof.RLayerDefs.lean ====
/-
  The reference's layer as one function: the product of a node table with a weight matrix, its rows gathered at the
  source list (negative indices counted from the end), each gathered row scaled by its edge's weight, the scaled rows
  summed into their destination rows of a zero table, the bias added to every row. The edge lists and the weights are
  the reference's own stages of the edge-index argument `x1`.
-/
import proofs.«175999_j15590731285080_1_alg».proof.Proof.RefRead

noncomputable section

namespace Cert.GcnRef

open Idealize.ShloMosaic Idealize.ShloMosaic.TcCoe

variable {F : FTy → Type} [FloatOps F]

/-- The reference's source list with each negative index moved up by the number of nodes. -/
def wrapR (s : IVec Cert.ReferenceIdeal.S1700000 32) : IVec Cert.ReferenceIdeal.S1700000 32 :=
  select (cmpi .slt s (broadcastInDim Cert.ReferenceIdeal.S1700000 ![] Cert.ReferenceIdeal.Facts₀.bcast_S_S1700000 (constantI Cert.ReferenceIdeal.S_ 32 0#32)))
    (addi s (broadcastInDim Cert.ReferenceIdeal.S1700000 ![] Cert.ReferenceIdeal.Facts₀.bcast_S_S1700000 (constantI Cert.ReferenceIdeal.S_ 32 100000#32))) s

/-- One layer with 128 output columns. -/
def rLayer128 (x1 : IVec Cert.ReferenceIdeal.S2x1600000 32) (h : FVec F Cert.ReferenceIdeal.S100000x128 .f32) (w : FVec F Cert.ReferenceIdeal.S128x128 .f32) (b : FVec F Cert.ReferenceIdeal.S128 .f32) :
    FVec F Cert.ReferenceIdeal.S100000x128 .f32 :=
  addf (Host.scatterAdd Cert.ReferenceIdeal.scatter_S100000x128_S1700000x1_S1700000x128_1_0_0_1
      (broadcastInDim Cert.ReferenceIdeal.S100000x128 ![] Cert.ReferenceIdeal.Facts₀.bcast_S_S100000x128 (constant Cert.ReferenceIdeal.S_ .f32 0x00000000#32))
      (broadcastInDim Cert.ReferenceIdeal.S1700000x1 ![0] Cert.ReferenceIdeal.Facts₀.bcast_S1700000_S1700000x1_0 (Cert.ReferenceIdeal.ReadP.val_main_v6 (F := F) x1))
      (mulf (Host.gather Cert.ReferenceIdeal.gather_S100000x128_S1700000x1_S1700000x128_1_0_n_n_0_1_1128
          (Host.dotGeneral Cert.ReferenceIdeal.dot_S100000x128_S128x128_S100000x128_1_0_0_1_n_n none h w)
          (broadcastInDim Cert.ReferenceIdeal.S1700000x1 ![0] Cert.ReferenceIdeal.Facts₀.bcast_S1700000_S1700000x1_0 (wrapR (Cert.ReferenceIdeal.ReadP.val_main_v3 (F := F) x1))))
        (broadcastInDim Cert.ReferenceIdeal.S1700000x128 ![0, 1] Cert.ReferenceIdeal.Facts₀.bcast_S1700000x1_S1700000x128_0_1
          (broadcastInDim Cert.ReferenceIdeal.S1700000x1 ![0] Cert.ReferenceIdeal.Facts₀.bcast_S1700000_S1700000x1_0 (Cert.ReferenceIdeal.ReadP.val_main_v29 (F := F) x1)))))
    (broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 b))

/-- The last layer, with 40 output columns. -/
def rLayer40 (x1 : IVec Cert.ReferenceIdeal.S2x1600000 32) (h : FVec F Cert.ReferenceIdeal.S100000x128 .f32) (w : FVec F Cert.ReferenceIdeal.S128x40 .f32) (b : FVec F Cert.ReferenceIdeal.S40 .f32) :
    FVec F Cert.ReferenceIdeal.S100000x40 .f32 :=
  addf (Host.scatterAdd Cert.ReferenceIdeal.scatter_S100000x40_S1700000x1_S1700000x40_1_0_0_1
      (broadcastInDim Cert.ReferenceIdeal.S100000x40 ![] Cert.ReferenceIdeal.Facts₀.bcast_S_S100000x40 (constant Cert.ReferenceIdeal.S_ .f32 0x00000000#32))
      (broadcastInDim Cert.ReferenceIdeal.S1700000x1 ![0] Cert.ReferenceIdeal.Facts₀.bcast_S1700000_S1700000x1_0 (Cert.ReferenceIdeal.ReadP.val_main_v6 (F := F) x1))
      (mulf (Host.gather Cert.ReferenceIdeal.gather_S100000x40_S1700000x1_S1700000x40_1_0_n_n_0_1_140
          (Host.dotGeneral Cert.ReferenceIdeal.dot_S100000x128_S128x40_S100000x40_1_0_0_1_n_n none h w)
          (broadcastInDim Cert.ReferenceIdeal.S1700000x1 ![0] Cert.ReferenceIdeal.Facts₀.bcast_S1700000_S1700000x1_0 (wrapR (Cert.ReferenceIdeal.ReadP.val_main_v3 (F := F) x1))))
        (broadcastInDim Cert.ReferenceIdeal.S1700000x40 ![0, 1] Cert.ReferenceIdeal.Facts₀.bcast_S1700000x1_S1700000x40_0_1
          (broadcastInDim Cert.ReferenceIdeal.S1700000x1 ![0] Cert.ReferenceIdeal.Facts₀.bcast_S1700000_S1700000x1_0 (Cert.ReferenceIdeal.ReadP.val_main_v29 (F := F) x1)))))
    (broadcastInDim Cert.ReferenceIdeal.S100000x40 ![0, 1] Cert.ReferenceIdeal.Facts₀.bcast_S1x40_S100000x40_0_1 (broadcastInDim Cert.ReferenceIdeal.S1x40 ![1] Cert.ReferenceIdeal.Facts₀.bcast_S40_S1x40_1 b))

/-- The maximum against zero, entry by entry. -/
def reluR (x : FVec F Cert.ReferenceIdeal.S100000x128 .f32) : FVec F Cert.ReferenceIdeal.S100000x128 .f32 :=
  maximumf x (broadcastInDim Cert.ReferenceIdeal.S100000x128 ![] Cert.ReferenceIdeal.Facts₀.bcast_S_S100000x128 (constant Cert.ReferenceIdeal.S_ .f32 0x00000000#32))

/-- The reference's result stage is three layers with a maximum against zero after the first two. -/
theorem ref_eq (x0 : FVec F Cert.ReferenceIdeal.S100000x128 .f32) (x1 : IVec Cert.ReferenceIdeal.S2x1600000 32) (x2 : FVec F Cert.ReferenceIdeal.S128x128 .f32) (x3 : FVec F Cert.ReferenceIdeal.S128 .f32)
    (x4 : FVec F Cert.ReferenceIdeal.S128x128 .f32) (x5 : FVec F Cert.ReferenceIdeal.S128 .f32) (x6 : FVec F Cert.ReferenceIdeal.S128x40 .f32) (x7 : FVec F Cert.ReferenceIdeal.S40 .f32) :
    Cert.ReferenceIdeal.ReadP.val_main_v82 (F := F) x0 x1 x2 x3 x4 x5 x6 x7
      = rLayer40 x1 (reluR (rLayer128 x1 (reluR (rLayer128 x1 x0 x2 x3)) x4 x5)) x6 x7 := by
  -- each printed stage is its operation applied to earlier stages; opened down to the three shared stages of the edge
  -- lists and the weights (sources, destinations, weights: kept closed), the two sides are the same term
  open Cert.ReferenceIdeal.ReadP in
  unfold val_main_v82 val_main_v79 val_main_v81 val_main_v80 val_main_v76 val_main_v73 val_main_v75 val_main_v74 val_main_v72 val_main_v71 val_main_v70 val_main_v69 val_main_v68 val_main_v67 val_main_v66 val_main_v77 val_main_v78 val_main_cst_14 val_main_c_12 val_main_c_13 val_main_v65 val_main_call2_v0 val_main_call2_cst val_main_v64 val_main_v61 val_main_v63 val_main_v62 val_main_v58 val_main_v55 val_main_v57 val_main_v56 val_main_v54 val_main_v53 val_main_v52 val_main_v51 val_main_v50 val_main_v49 val_main_v48 val_main_v59 val_main_v60 val_main_cst_11 val_main_c_9 val_main_c_10 val_main_v47 val_main_call1_v0 val_main_call1_cst val_main_v46 val_main_v43 val_main_v45 val_main_v44 val_main_v40 val_main_v37 val_main_v39 val_main_v38 val_main_v36 val_main_v35 val_main_v34 val_main_v33 val_main_v32 val_main_v31 val_main_v30 val_main_v41 val_main_v42 val_main_cst_8 val_main_c_6 val_main_c_7 rLayer40 rLayer128 reluR wrapR
  rfl

end Cert.GcnRef

end
-- ==== Proof.RLayer.lean ====
/-
  The kernel's layer over the padded edge list is the reference's layer over the edge list, for every node table,
  weight matrix and bias; hence the kernel's three-layer result is the reference's result stage of the same arguments.
  The plain product inside a layer is the same sum on both sides; the padded rows contribute zeros.
-/
import proofs.«175999_j15590731285080_1_alg».proof.Proof.FoldVal
import proofs.«175999_j15590731285080_1_alg».proof.Proof.Edges
import proofs.«175999_j15590731285080_1_alg».proof.Proof.LayerPad
import proofs.«175999_j15590731285080_1_alg».proof.Proof.RLayerDefs

set_option maxRecDepth 16384

noncomputable section

namespace Cert.KernelIdeal.Fold

open Cert.KernelIdeal Cert.KernelIdeal.Gen Cert.GcnVals Cert.GcnRef
open Idealize.ShloMosaic Idealize.ShloMosaic.TcCoe Idealize.ShloMosaic.ValueIdx Idealize.ShloMosaic.RowDims Idealize.SL.Sem

variable (m : (ℓ : Loc nD τ sig) → Buf (Elt Ideal) ℓ) (ρ : Dev nD → PrngReg) (c : Dev nD)

/-- The plain product of two tables is the host's product of them, over the extended reals. -/
private theorem mm_eq_dot128 (h : FVec Ideal S100000x128 .f32) (w : FVec Ideal S128x128 .f32) :
    mm (M := 100000) (K := 128) (N := 128) h w
      = Host.dotGeneral (F := Ideal) Cert.ReferenceIdeal.dot_S100000x128_S128x128_S100000x128_1_0_0_1_n_n none h w := by
  funext i
  obtain ⟨p, q, rfl⟩ : ∃ (p : Fin 100000) (q : Fin 128), i = ix2 p q := ⟨i 0, i 1, eq_ix2 (n0 := 100000) (n1 := 128) i⟩
  rw [mm_apply]
  exact (dotGeneral_plain_apply none .single h w p q).symm

/-- The same for a weight matrix with 40 columns. -/
private theorem mm_eq_dot40 (h : FVec Ideal S100000x128 .f32) (w : FVec Ideal S128x40 .f32) :
    mm (M := 100000) (K := 128) (N := 40) h w
      = Host.dotGeneral (F := Ideal) Cert.ReferenceIdeal.dot_S100000x128_S128x40_S100000x40_1_0_0_1_n_n none h w := by
  funext i
  obtain ⟨p, q, rfl⟩ : ∃ (p : Fin 100000) (q : Fin 40), i = ix2 p q := ⟨i 0, i 1, eq_ix2 (n0 := 100000) (n1 := 40) i⟩
  rw [mm_apply]
  exact (dotGeneral_plain_apply none .single h w p q).symm

/-- A layer with 128 output columns: the kernel's is the reference's. -/
theorem kLayer128_eq (h : FVec Ideal S100000x128 .f32) (w : FVec Ideal S128x128 .f32) (b : FVec Ideal S128 .f32) :
    kLayer128 m ρ c h w b = rLayer128 (F := Ideal) (m ((c : Thread nD τ).loc main_arg1)) h w b := by
  -- both sides are a scatter-add plus the bias spread over the rows; the bias parts are the same term
  unfold kLayer128 scat128 gath128 rLayer128
  refine congrArg₂ addf ?_ rfl
  -- the padded lists are the reference's lists followed by zeros, and the plain product is the host's product
  unfold dstP srcP nrmP
  rw [srcP_eq m ρ c, dstP_eq m ρ c, nrmP_eq m ρ c, mm_eq_dot128]
  unfold Host.scatterAdd
  rw [Ideal.hostScatterAdd_def, Ideal.hostScatterAdd_def]
  -- the appended rows carry weight zero and change nothing
  exact layer_pad (C := 128) (E := 1700000) (P := 3936) (E' := 1703936) (by omega) (by omega) (by omega) (by omega)
    _ _ _ _ _ _ _ _ _ _ _ _ _ _ _ _

/-- The last layer, with 40 output columns: the kernel's is the reference's. -/
theorem kLayer40_eq (h : FVec Ideal S100000x128 .f32) (w : FVec Ideal S128x40 .f32) (b : FVec Ideal S40 .f32) :
    kLayer40 m ρ c h w b = rLayer40 (F := Ideal) (m ((c : Thread nD τ).loc main_arg1)) h w b := by
  -- both sides are a scatter-add plus the bias spread over the rows; the bias parts are the same term
  unfold kLayer40 scat40 gath40 rLayer40
  refine congrArg₂ addf ?_ rfl
  -- the padded lists are the reference's lists followed by zeros, and the plain product is the host's product
  unfold dstP srcP nrmP
  rw [srcP_eq m ρ c, dstP_eq m ρ c, nrmP_eq m ρ c, mm_eq_dot40]
  unfold Host.scatterAdd
  rw [Ideal.hostScatterAdd_def, Ideal.hostScatterAdd_def]
  -- the appended rows carry weight zero and change nothing
  exact layer_pad (C := 40) (E := 1700000) (P := 3936) (E' := 1703936) (by omega) (by omega) (by omega) (by omega)
    _ _ _ _ _ _ _ _ _ _ _ _ _ _ _ _

/-- The kernel's three-layer term is the reference's result stage of the same arguments. -/
theorem kOut_eq : kOut m ρ c
    = Cert.ReferenceIdeal.ReadP.val_main_v82 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  unfold kOut kA2 kA1
  rw [kLayer40_eq, kLayer128_eq, kLayer128_eq, Cert.GcnRef.ref_eq]
  rfl

end Cert.KernelIdeal.Fold

end
-- ==== Proof.lean ====
/-
  The idealized kernel and the idealized reference compute the same three-layer graph convolution of their
  arguments. Per layer: the node table times the layer's weight matrix (the kernel in 20 row blocks, a sum over the 128
  contracted columns on both sides), the rows of the product gathered at each edge's source node, each gathered row
  scaled by its edge's weight (the kernel in 208 row blocks), the scaled rows summed into their destination nodes'
  rows, the bias added, and between layers the maximum against zero. The kernel runs over the edge list padded by
  3936 rows of source 0, destination 0 and weight 0; on the extended reals x · 0 = 0 for every x, so the padded rows
  add zeros to row 0 and the two results are equal entry by entry, with no use of the inputs' finiteness. The edge
  lists and the weights are computed by the same host operations of the edge-index argument in both programs.
  The three frames are the generated ones; the ideal pass rewrote nothing, so `preserves` is trivial.
-/
import proofs.«175999_j15590731285080_1_alg».proof.Defs
import proofs.«175999_j15590731285080_1_alg».proof.Proof.Gen.Kernel
import proofs.«175999_j15590731285080_1_alg».proof.Proof.Gen.Kernel.Frame
import proofs.«175999_j15590731285080_1_alg».proof.Proof.Gen.KernelIdeal
import proofs.«175999_j15590731285080_1_alg».proof.Proof.Gen.KernelIdeal.Frame
import proofs.«175999_j15590731285080_1_alg».proof.Proof.Gen.ReferenceIdeal
import proofs.«175999_j15590731285080_1_alg».proof.Proof.Gen.Pre_finite_inputs
import proofs.«175999_j15590731285080_1_alg».proof.Proof.KRun
import proofs.«175999_j15590731285080_1_alg».proof.Proof.Reg0
import proofs.«175999_j15590731285080_1_alg».proof.Proof.Reg1
import proofs.«175999_j15590731285080_1_alg».proof.Proof.Reg2
import proofs.«175999_j15590731285080_1_alg».proof.Proof.Reg3
import proofs.«175999_j15590731285080_1_alg».proof.Proof.Reg4
import proofs.«175999_j15590731285080_1_alg».proof.Proof.Reg5
import proofs.«175999_j15590731285080_1_alg».proof.Proof.FoldVal
import proofs.«175999_j15590731285080_1_alg».proof.Proof.RLayer
import proofs.«175999_j15590731285080_1_alg».proof.Proof.RefRun
import proofs.«175999_j15590731285080_1_alg».proof.Proof.RefRead
import Idealize.ShloMosaic.Adequacy
import Idealize.ShloMosaic.Init

noncomputable section

namespace Cert.Proof

open Idealize.ShloMosaic Idealize.ShloMosaic.TcCoe Idealize.SL.Sem

/-- Each region's output array after its region: the three products and the three row scalings. -/
theorem regFacts : Cert.KernelIdeal.Fold.RegFacts :=
  ⟨Cert.KernelIdeal.RegVal.reg0_arr, Cert.KernelIdeal.RegVal.reg1_arr, Cert.KernelIdeal.RegVal.reg2_arr,
   Cert.KernelIdeal.RegVal.reg3_arr, Cert.KernelIdeal.RegVal.reg4_arr, Cert.KernelIdeal.RegVal.reg5_arr⟩

theorem frame_k : Cert.frame_Kernel := fun m ρ _ => Cert.Kernel.Gen.frame m ρ
theorem frame_ki : Cert.frame_KernelIdeal := fun m ρ _ => Cert.KernelIdeal.Gen.frame m ρ
/-- The reference has no kernel: its frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Both programs end with the three-layer term of the kernel's arguments in their result arrays: the kernel by its
    run read back through its regions, the reference by its run's stage, the two equal layer by layer. -/
theorem algebraic : Cert.algebraic_KernelIdeal_ReferenceIdeal := by
  intro m ρ m' ρ' _ hagree
  refine ⟨fun c => Cert.KernelIdeal.Fold.kOut m ρ c, ?_, ?_⟩
  · exact (θ_run Cert.KernelIdeal.defs _ _).mono
      (fun r h c => ⟨(h c).1.trans (Cert.KernelIdeal.Fold.h83 m ρ c regFacts), (h c).2⟩)
      (Cert.KernelIdeal.GenRun.run_main (F := Ideal) m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v82_eq, (hagree c).1, (hagree c).2.1, (hagree c).2.2.1, (hagree c).2.2.2.1,
      (hagree c).2.2.2.2.1, (hagree c).2.2.2.2.2.1, (hagree c).2.2.2.2.2.2.1, (hagree c).2.2.2.2.2.2.2]
    exact (Cert.KernelIdeal.Fold.kOut_eq m ρ c).symm

theorem claim : Cert.Claim :=
  ⟨Cert.Kernel.Gen.facts, Cert.KernelIdeal.Gen.facts, Cert.ReferenceIdeal.Gen.facts, Cert.Pre_finite_inputs.Gen.facts,
   frame_k, frame_ki, frame_ri, trivial, algebraic⟩

end Cert.Proof

end
